-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024 : Shape := ⟨2, ![1, 1024]⟩
abbrev S128x139 : Shape := ⟨2, ![128, 139]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S128x139 : S_.BroadcastsInDim S128x139 (![] : Fin 0 → Fin S128x139.rank)
  reducesTo_S128x139_S_d0_1 : S128x139.ReducesTo [0, 1] S_

variable [Facts]

def fn {F : FTy → Type} [FloatOps F] (main_arg0 : IVec S1x1024 32) (main_arg1 : IVec S1x1024 32) (main_arg2 : IVec S1x1024 32) (main_arg3 : IVec S1x1024 32) (main_arg4 : FVec F S1x1024 .f32) (main_arg5 : FVec F S128x139 .f32) : IVec S_ 1 :=
  let main_v0 : FVec F S1x1024 .f32 := Host.absf main_arg4
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S128x139 .f32 := Host.absf main_arg5
  let main_cst_0 : FVec F S_ .f32 := constant S_ .f32 0x7F800000#32
  let main_v5 : FVec F S128x139 .f32 := broadcastInDim S128x139 ![] bcast_S_S128x139 main_cst_0
  let main_v6 : IVec S128x139 1 := cmpf .olt main_v4 main_v5
  let main_c_1 : IVec S_ 1 := constantI S_ 1 1#1
  let main_v7 : IVec S_ 1 := (fun x v => Host.reduce IntOp.andi x v reducesTo_S128x139_S_d0_1 h_S_) main_v6 main_c_1
  let main_v8 : IVec S_ 1 := andi main_v3 main_v7
  main_v8
-- ==== Kernel.lean ====
abbrev S1x1024 : Shape := ⟨2, ![1, 1024]⟩
abbrev S128x139 : Shape := ⟨2, ![128, 139]⟩
abbrev S1024 : Shape := ⟨1, ![1024]⟩
abbrev S1024x1 : Shape := ⟨2, ![1024, 1]⟩
abbrev S139x128 : Shape := ⟨2, ![139, 128]⟩
abbrev S133x128 : Shape := ⟨2, ![133, 128]⟩
abbrev S1x128 : Shape := ⟨2, ![1, 128]⟩
abbrev S1024x1024x128 : Shape := ⟨3, ![1024, 1024, 128]⟩
abbrev S128x1 : Shape := ⟨2, ![128, 1]⟩
abbrev S128x128x128 : Shape := ⟨3, ![128, 128, 128]⟩
abbrev S128x128 : Shape := ⟨2, ![128, 128]⟩
abbrev S1x1x133 : Shape := ⟨3, ![1, 1, 133]⟩
abbrev S128x128x1 : Shape := ⟨3, ![128, 128, 1]⟩
abbrev S128x128x133 : Shape := ⟨3, ![128, 128, 133]⟩
abbrev S16384x133 : Shape := ⟨2, ![16384, 133]⟩
abbrev S16384x128 : Shape := ⟨2, ![16384, 128]⟩
abbrev S1x1x128 : Shape := ⟨3, ![1, 1, 128]⟩
abbrev S1x1024x1024x128 : Shape := ⟨4, ![1, 1024, 1024, 128]⟩

abbrev nBuf : Space → Nat
  | .hbm => 28
  | .vmem => 25
  | .smem => 0
  | _ => 0

abbrev bufTy : (tb : Table) → Fin (tcTables nBuf tb) → BufTy
  | .hbm, ⟨0, _⟩ => ⟨S1x1024, .i32⟩
  | .hbm, ⟨1, _⟩ => ⟨S1x1024, .i32⟩
  | .hbm, ⟨2, _⟩ => ⟨S1x1024, .i32⟩
  | .hbm, ⟨3, _⟩ => ⟨S1x1024, .i32⟩
  | .hbm, ⟨4, _⟩ => ⟨S1x1024, .f32⟩
  | .hbm, ⟨5, _⟩ => ⟨S128x139, .f32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S1024, .f32⟩
  | .hbm, ⟨11, _⟩ => ⟨S1024x1, .i32⟩
  | .hbm, ⟨12, _⟩ => ⟨S1x1024, .i32⟩
  | .hbm, ⟨13, _⟩ => ⟨S1024x1, .i32⟩
  | .hbm, ⟨14, _⟩ => ⟨S1x1024, .i32⟩
  | .hbm, ⟨15, _⟩ => ⟨S1024x1, .i32⟩
  | .hbm, ⟨16, _⟩ => ⟨S1x1024, .i32⟩
  | .hbm, ⟨17, _⟩ => ⟨S1024x1, .i32⟩
  | .hbm, ⟨18, _⟩ => ⟨S1x1024, .i32⟩
  | .hbm, ⟨19, _⟩ => ⟨S1024x1, .f32⟩
  | .hbm, ⟨20, _⟩ => ⟨S1x1024, .f32⟩
  | .hbm, ⟨21, _⟩ => ⟨S139x128, .f32⟩
  | .hbm, ⟨22, _⟩ => ⟨S133x128, .f32⟩
  | .hbm, ⟨23, _⟩ => ⟨S133x128, .bf16⟩
  | .hbm, ⟨24, _⟩ => ⟨S1x128, .f32⟩
  | .hbm, ⟨25, _⟩ => ⟨S1x128, .f32⟩
  | .hbm, ⟨26, _⟩ => ⟨S1024x1024x128, .f32⟩
  | .hbm, ⟨27, _⟩ => ⟨S1x1024x1024x128, .f32⟩
  | .local _ .vmem, ⟨0, _⟩ => ⟨S128x1, .i32⟩
  | .local _ .vmem, ⟨1, _⟩ => ⟨S128x1, .i32⟩
  | .local _ .vmem, ⟨2, _⟩ => ⟨S1x128, .i32⟩
  | .local _ .vmem, ⟨3, _⟩ => ⟨S1x128, .i32⟩
  | .local _ .vmem, ⟨4, _⟩ => ⟨S128x1, .i32⟩
  | .local _ .vmem, ⟨5, _⟩ => ⟨S128x1, .i32⟩
  | .local _ .vmem, ⟨6, _⟩ => ⟨S1x128, .i32⟩
  | .local _ .vmem, ⟨7, _⟩ => ⟨S1x128, .i32⟩
  | .local _ .vmem, ⟨8, _⟩ => ⟨S128x1, .i32⟩
  | .local _ .vmem, ⟨9, _⟩ => ⟨S128x1, .i32⟩
  | .local _ .vmem, ⟨10, _⟩ => ⟨S1x128, .i32⟩
  | .local _ .vmem, ⟨11, _⟩ => ⟨S1x128, .i32⟩
  | .local _ .vmem, ⟨12, _⟩ => ⟨S128x1, .i32⟩
  | .local _ .vmem, ⟨13, _⟩ => ⟨S128x1, .i32⟩
  | .local _ .vmem, ⟨14, _⟩ => ⟨S1x128, .i32⟩
  | .local _ .vmem, ⟨15, _⟩ => ⟨S1x128, .i32⟩
  | .local _ .vmem, ⟨16, _⟩ => ⟨S128x1, .f32⟩
  | .local _ .vmem, ⟨17, _⟩ => ⟨S128x1, .f32⟩
  | .local _ .vmem, ⟨18, _⟩ => ⟨S1x128, .f32⟩
  | .local _ .vmem, ⟨19, _⟩ => ⟨S1x128, .f32⟩
  | .local _ .vmem, ⟨20, _⟩ => ⟨S133x128, .bf16⟩
  | .local _ .vmem, ⟨21, _⟩ => ⟨S1x128, .f32⟩
  | .local _ .vmem, ⟨22, _⟩ => ⟨S1x128, .f32⟩
  | .local _ .vmem, ⟨23, _⟩ => ⟨S128x128x128, .f32⟩
  | .local _ .vmem, ⟨24, _⟩ => ⟨S128x128x128, .f32⟩
  | _, _ => ⟨S1x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S133x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S128x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

class Facts₀ : Prop where
  shapeCasts_S1x1024_S1024 : S1x1024.ShapeCasts S1024
  shapeCasts_S1024_S1024x1 : S1024.ShapeCasts S1024x1
  shapeCasts_S1024_S1x1024 : S1024.ShapeCasts S1x1024
  transposes_S128x139_S139x128_1_0 : S128x139.Transposes [1, 0] S139x128
  slices_S139x128_S133x128_0_0 : S139x128.Slices ![0, 0] S133x128
  bitsLt_bf16_f32 : FTy.bits .bf16 < FTy.bits .f32
  slices_S139x128_S1x128_135_0 : S139x128.Slices ![135, 0] S1x128
  slices_S139x128_S1x128_138_0 : S139x128.Slices ![138, 0] S1x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S128x1_S128x128 : S128x1.Broadcasts S128x128
  broadcasts_S1x128_S128x128 : S1x128.Broadcasts S128x128
  iota_S1x1x133_d2_w32 : S1x1x133.Iotas .tc 32 [2]
  shapeCasts_S128x128_S128x128x1 : S128x128.ShapeCasts S128x128x1
  broadcasts_S1x1x133_S128x128x133 : S1x1x133.Broadcasts S128x128x133
  broadcasts_S128x128x1_S128x128x133 : S128x128x1.Broadcasts S128x128x133
  natLt_1_32 : 1 < 32
  shapeCasts_S128x128x133_S16384x133 : S128x128x133.ShapeCasts S16384x133
  inb_S133x128_S133x128_0_0 : ∀ a, (![0, 0] : Fin 2 → Nat) a + S133x128.size a ≤ S133x128.size a
  h_S133x128 : 0 < S133x128.numel
  shapeCasts_S133x128_S133x128 : S133x128.ShapeCasts S133x128
  shapeCasts_S16384x128_S128x128x128 : S16384x128.ShapeCasts S128x128x128
  shapeCasts_S1x128_S1x1x128 : S1x128.ShapeCasts S1x1x128
  broadcasts_S128x128x1_S128x128x128 : S128x128x1.Broadcasts S128x128x128
  broadcasts_S1x1x128_S128x128x128 : S1x1x128.Broadcasts S128x128x128
  inb_S128x128x128_S128x128x128_0_0_0 : ∀ a, (![0, 0, 0] : Fin 3 → Nat) a + S128x128x128.size a ≤ S128x128x128.size a
  h_S128x128x128 : 0 < S128x128x128.numel
  shapeCasts_S1024x1024x128_S1x1024x1024x128 : S1024x1024x128.ShapeCasts S1x1024x1024x128
  dot_S16384x133_S133x128_S16384x128_1_0_0_1_n_n_wf : DotDims.WF S16384x133 S133x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1.size a ≤ S1024x1.size a
  hwx0_0 : ∀ i : grid0.Coords, EltTy.bits .i32 = 32 ∨ (Rect.block (s := S1024x1) S128x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x1024.size a
  hwx0_1 : ∀ i : grid0.Coords, EltTy.bits .i32 = 32 ∨ (Rect.block (s := S1x1024) S1x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S1024x1.size a
  hwx0_2 : ∀ i : grid0.Coords, EltTy.bits .i32 = 32 ∨ (Rect.block (s := S1024x1) S128x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x1024.size a
  hwx0_3 : ∀ i : grid0.Coords, EltTy.bits .i32 = 32 ∨ (Rect.block (s := S1x1024) S1x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S1024x1.size a
  hwx0_4 : ∀ i : grid0.Coords, EltTy.bits .i32 = 32 ∨ (Rect.block (s := S1024x1) S128x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x1024.size a
  hwx0_5 : ∀ i : grid0.Coords, EltTy.bits .i32 = 32 ∨ (Rect.block (s := S1x1024) S1x128.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S1024x1.size a
  hwx0_6 : ∀ i : grid0.Coords, EltTy.bits .i32 = 32 ∨ (Rect.block (s := S1024x1) S128x1.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x1024.size a
  hwx0_7 : ∀ i : grid0.Coords, EltTy.bits .i32 = 32 ∨ (Rect.block (s := S1x1024) S1x128.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1.size a ≤ S1024x1.size a
  hwx0_8 : ∀ i : grid0.Coords, EltTy.bits .f32 = 32 ∨ (Rect.block (s := S1024x1) S128x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x1024.size a
  hwx0_9 : ∀ i : grid0.Coords, EltTy.bits .f32 = 32 ∨ (Rect.block (s := S1x1024) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S133x128.size a ≤ S133x128.size a
  hwx0_10 : ∀ i : grid0.Coords, EltTy.bits .bf16 = 32 ∨ (Rect.block (s := S133x128) S133x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S128x128x128.size a ≤ S1024x1024x128.size a
  hwx0_13 : ∀ i : grid0.Coords, EltTy.bits .f32 = 32 ∨ (Rect.block (s := S1024x1024x128) S128x128x128.size (cc0_transform_13 i) (hinb0_13 i)).WholeWords (EltTy.packing .f32)

variable [Facts₀]

def dot_S16384x133_S133x128_S16384x128_1_0_0_1_n_n : DotDims S16384x133 S133x128 S16384x128 where
  lhsContracting := [1]
  rhsContracting := [0]
  lhsNonContracting := [0]
  rhsNonContracting := [1]
  lhsBatch := []
  rhsBatch := []
  wf := dot_S16384x133_S133x128_S16384x128_1_0_0_1_n_n_wf

abbrev win0_0 : Pipeline.Window sig grid0 :=
  Pipeline.Window.ofSpec (Memref.whole main_v5) S128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S128x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S128x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v13) S128x1.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v17) S133x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v18) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v19) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v20) S128x128x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S1x1024 : Shape := ⟨2, ![1, 1024]⟩
abbrev S128x139 : Shape := ⟨2, ![128, 139]⟩
abbrev S1x1024x1 : Shape := ⟨3, ![1, 1024, 1]⟩
abbrev S1x1x1024 : Shape := ⟨3, ![1, 1, 1024]⟩
abbrev S1x1024x1024 : Shape := ⟨3, ![1, 1024, 1024]⟩
abbrev S_ : Shape := ⟨0, ![]⟩
abbrev S139x128 : Shape := ⟨2, ![139, 128]⟩
abbrev S66x128 : Shape := ⟨2, ![66, 128]⟩
abbrev S1x128 : Shape := ⟨2, ![1, 128]⟩
abbrev S128 : Shape := ⟨1, ![128]⟩
abbrev S6x128 : Shape := ⟨2, ![6, 128]⟩
abbrev S1x1024x1024x1 : Shape := ⟨4, ![1, 1024, 1024, 1]⟩
abbrev S1x1024x1024x128 : Shape := ⟨4, ![1, 1024, 1024, 128]⟩
abbrev S1x1x1x128 : Shape := ⟨4, ![1, 1, 1, 128]⟩

abbrev nBuf : Space → Nat
  | .hbm => 132
  | .vmem => 0
  | .smem => 0
  | _ => 0

abbrev hbmTy0_0 (i : Nat) : BufTy := match i % 128 with
  | 0 => ⟨S1x1024, .i32⟩
  | 1 => ⟨S1x1024, .i32⟩
  | 2 => ⟨S1x1024, .i32⟩
  | 3 => ⟨S1x1024, .i32⟩
  | 4 => ⟨S1x1024, .f32⟩
  | 5 => ⟨S128x139, .f32⟩
  | 6 => ⟨S1x1024x1, .i32⟩
  | 7 => ⟨S1x1x1024, .i32⟩
  | 8 => ⟨S1x1024x1024, .i32⟩
  | 9 => ⟨S1x1024x1024, .i32⟩
  | 10 => ⟨S1x1024x1024, .i1⟩
  | 11 => ⟨S1x1024x1, .i32⟩
  | 12 => ⟨S1x1x1024, .i32⟩
  | 13 => ⟨S1x1024x1024, .i32⟩
  | 14 => ⟨S1x1024x1024, .i32⟩
  | 15 => ⟨S1x1024x1024, .i1⟩
  | 16 => ⟨S1x1024x1, .i32⟩
  | 17 => ⟨S1x1x1024, .i32⟩
  | 18 => ⟨S1x1024x1024, .i32⟩
  | 19 => ⟨S1x1024x1024, .i32⟩
  | 20 => ⟨S1x1024x1024, .i1⟩
  | 21 => ⟨S1x1x1024, .i32⟩
  | 22 => ⟨S1x1024x1, .i32⟩
  | 23 => ⟨S1x1024x1024, .i32⟩
  | 24 => ⟨S1x1024x1024, .i32⟩
  | 25 => ⟨S1x1024x1024, .i32⟩
  | 26 => ⟨S_, .i32⟩
  | 27 => ⟨S1x1024x1024, .i32⟩
  | 28 => ⟨S1x1024x1024, .i32⟩
  | 29 => ⟨S_, .i32⟩
  | 30 => ⟨S_, .i32⟩
  | 31 => ⟨S_, .i32⟩
  | 32 => ⟨S1x1024x1024, .i32⟩
  | 33 => ⟨S1x1024x1024, .i32⟩
  | 34 => ⟨S_, .i32⟩
  | 35 => ⟨S1x1024x1024, .i32⟩
  | 36 => ⟨S1x1024x1024, .i32⟩
  | 37 => ⟨S_, .i32⟩
  | 38 => ⟨S_, .i32⟩
  | 39 => ⟨S1x1024x1024, .i32⟩
  | 40 => ⟨S1x1024x1024, .i32⟩
  | 41 => ⟨S1x1024x1024, .i1⟩
  | 42 => ⟨S1x1x1024, .i32⟩
  | 43 => ⟨S1x1024x1, .i32⟩
  | 44 => ⟨S1x1024x1024, .i32⟩
  | 45 => ⟨S1x1024x1024, .i32⟩
  | 46 => ⟨S1x1024x1024, .i32⟩
  | 47 => ⟨S_, .i32⟩
  | 48 => ⟨S1x1024x1024, .i32⟩
  | 49 => ⟨S1x1024x1024, .i32⟩
  | 50 => ⟨S_, .i32⟩
  | 51 => ⟨S_, .i32⟩
  | 52 => ⟨S_, .i32⟩
  | 53 => ⟨S1x1024x1024, .i32⟩
  | 54 => ⟨S1x1024x1024, .i32⟩
  | 55 => ⟨S_, .i32⟩
  | 56 => ⟨S1x1024x1024, .i32⟩
  | 57 => ⟨S1x1024x1024, .i32⟩
  | 58 => ⟨S_, .i32⟩
  | 59 => ⟨S_, .i32⟩
  | 60 => ⟨S1x1024x1024, .i32⟩
  | 61 => ⟨S1x1024x1024, .i32⟩
  | 62 => ⟨S1x1x1024, .i32⟩
  | 63 => ⟨S1x1024x1, .i32⟩
  | 64 => ⟨S1x1024x1024, .i32⟩
  | 65 => ⟨S1x1024x1024, .i32⟩
  | 66 => ⟨S1x1024x1024, .i32⟩
  | 67 => ⟨S_, .i32⟩
  | 68 => ⟨S1x1024x1024, .i32⟩
  | 69 => ⟨S1x1024x1024, .i32⟩
  | 70 => ⟨S_, .i32⟩
  | 71 => ⟨S_, .i32⟩
  | 72 => ⟨S_, .i32⟩
  | 73 => ⟨S1x1024x1024, .i32⟩
  | 74 => ⟨S1x1024x1024, .i32⟩
  | 75 => ⟨S_, .i32⟩
  | 76 => ⟨S1x1024x1024, .i32⟩
  | 77 => ⟨S1x1024x1024, .i32⟩
  | 78 => ⟨S_, .i32⟩
  | 79 => ⟨S_, .i32⟩
  | 80 => ⟨S1x1024x1024, .i32⟩
  | 81 => ⟨S1x1024x1024, .i32⟩
  | 82 => ⟨S139x128, .f32⟩
  | 83 => ⟨S66x128, .f32⟩
  | 84 => ⟨S66x128, .f32⟩
  | 85 => ⟨S1x128, .f32⟩
  | 86 => ⟨S128, .f32⟩
  | 87 => ⟨S6x128, .f32⟩
  | 88 => ⟨S_, .i32⟩
  | 89 => ⟨S1x1024x1024, .i32⟩
  | 90 => ⟨S1x1024x1024, .i1⟩
  | 91 => ⟨S_, .i32⟩
  | 92 => ⟨S1x1024x1024, .i32⟩
  | 93 => ⟨S1x1024x1024, .i32⟩
  | 94 => ⟨S1x1024x1024, .i32⟩
  | 95 => ⟨S1x1024x1024x1, .i32⟩
  | 96 => ⟨S1x1024x1024x128, .f32⟩
  | 97 => ⟨S_, .i32⟩
  | 98 => ⟨S1x1024x1024, .i32⟩
  | 99 => ⟨S1x1024x1024, .i1⟩
  | 100 => ⟨S_, .i32⟩
  | 101 => ⟨S1x1024x1024, .i32⟩
  | 102 => ⟨S1x1024x1024, .i32⟩
  | 103 => ⟨S1x1024x1024, .i32⟩
  | 104 => ⟨S1x1024x1024x1, .i32⟩
  | 105 => ⟨S1x1024x1024x128, .f32⟩
  | 106 => ⟨S1x1024x1024x128, .f32⟩
  | 107 => ⟨S1x1024x1024x1, .i1⟩
  | 108 => ⟨S1x1024x1024x1, .f32⟩
  | 109 => ⟨S1x1x1x128, .f32⟩
  | 110 => ⟨S1x1024x1024x128, .f32⟩
  | 111 => ⟨S1x1024x1024x128, .f32⟩
  | 112 => ⟨S1x1024x1024x128, .f32⟩
  | 113 => ⟨S1x1024x1024x128, .f32⟩
  | 114 => ⟨S_, .i32⟩
  | 115 => ⟨S1x1024x1024, .i32⟩
  | 116 => ⟨S1x1024x1024, .i1⟩
  | 117 => ⟨S_, .i32⟩
  | 118 => ⟨S1x1024x1024, .i32⟩
  | 119 => ⟨S1x1024x1024, .i32⟩
  | 120 => ⟨S1x1024x1024, .i32⟩
  | 121 => ⟨S1x1024x1024x1, .i32⟩
  | 122 => ⟨S1x1024x1024x128, .f32⟩
  | 123 => ⟨S1x1024x1024x128, .f32⟩
  | 124 => ⟨S1x1024x1, .f32⟩
  | 125 => ⟨S1x1x1024, .f32⟩
  | 126 => ⟨S1x1024x1024, .f32⟩
  | 127 => ⟨S1x1024x1024, .f32⟩
  | _ => ⟨S1x1024, .i32⟩

abbrev hbmTy0_1 (i : Nat) : BufTy := match i % 128 with
  | 0 => ⟨S1x1024x1024, .f32⟩
  | 1 => ⟨S1x1024x1024x1, .f32⟩
  | 2 => ⟨S1x1024x1024x128, .f32⟩
  | 3 => ⟨S1x1024x1024x128, .f32⟩
  | _ => ⟨S1x1024, .i32⟩

abbrev hbmTy (i : Nat) : BufTy := match i / 128 with
  | 0 => hbmTy0_0 i
  | 1 => hbmTy0_1 i
  | _ => ⟨S1x1024, .i32⟩

abbrev bufTy : (tb : Table) → Fin (tcTables nBuf tb) → BufTy
  | .hbm, ⟨i, _⟩ => hbmTy i
  | _, _ => ⟨S1x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_c_0 : Ref sig .tc := ⟨.hbm, 29, rfl⟩
abbrev main_c_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v22 : Ref sig .tc := ⟨.hbm, 36, rfl⟩
abbrev main_c_2 : Ref sig .tc := ⟨.hbm, 37, rfl⟩
abbrev main_call1_v0 : Ref sig .tc := ⟨.hbm, 38, rfl⟩
abbrev main_call1_v1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_3 : Ref sig .tc := ⟨.hbm, 47, rfl⟩
abbrev main_v30 : Ref sig .tc := ⟨.hbm, 48, rfl⟩
abbrev main_v31 : Ref sig .tc := ⟨.hbm, 49, rfl⟩
abbrev main_c_4 : Ref sig .tc := ⟨.hbm, 50, rfl⟩
abbrev main_c_5 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v32 : Ref sig .tc := ⟨.hbm, 57, rfl⟩
abbrev main_c_6 : Ref sig .tc := ⟨.hbm, 58, rfl⟩
abbrev main_call3_v0 : Ref sig .tc := ⟨.hbm, 59, rfl⟩
abbrev main_call3_v1 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_7 : Ref sig .tc := ⟨.hbm, 67, rfl⟩
abbrev main_v39 : Ref sig .tc := ⟨.hbm, 68, rfl⟩
abbrev main_v40 : Ref sig .tc := ⟨.hbm, 69, rfl⟩
abbrev main_c_8 : Ref sig .tc := ⟨.hbm, 70, rfl⟩
abbrev main_c_9 : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_v41 : Ref sig .tc := ⟨.hbm, 77, rfl⟩
abbrev main_c_10 : Ref sig .tc := ⟨.hbm, 78, rfl⟩
abbrev main_call5_v0 : Ref sig .tc := ⟨.hbm, 79, rfl⟩
abbrev main_call5_v1 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_c_11 : Ref sig .tc := ⟨.hbm, 88, rfl⟩
abbrev main_v49 : Ref sig .tc := ⟨.hbm, 89, rfl⟩
abbrev main_v50 : Ref sig .tc := ⟨.hbm, 90, rfl⟩
abbrev main_c_12 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_c_13 : Ref sig .tc := ⟨.hbm, 97, rfl⟩
abbrev main_v56 : Ref sig .tc := ⟨.hbm, 98, rfl⟩
abbrev main_v57 : Ref sig .tc := ⟨.hbm, 99, rfl⟩
abbrev main_c_14 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_c_15 : Ref sig .tc := ⟨.hbm, 114, rfl⟩
abbrev main_v71 : Ref sig .tc := ⟨.hbm, 115, rfl⟩
abbrev main_v72 : Ref sig .tc := ⟨.hbm, 116, rfl⟩
abbrev main_c_16 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩

abbrev nD : Nat := 1
abbrev τ : Topo := Topo.v7x

variable {F : FTy → Type} [FloatOps F]

class Facts₀ : Prop where
  bcast_S1x1024_S1x1024x1_0_1 : S1x1024.BroadcastsInDim S1x1024x1 (![0, 1] : Fin 2 → Fin S1x1024x1.rank)
  bcast_S1x1024_S1x1x1024_0_2 : S1x1024.BroadcastsInDim S1x1x1024 (![0, 2] : Fin 2 → Fin S1x1x1024.rank)
  bcast_S1x1024x1_S1x1024x1024_0_1_2 : S1x1024x1.BroadcastsInDim S1x1024x1024 (![0, 1, 2] : Fin 3 → Fin S1x1024x1024.rank)
  bcast_S1x1x1024_S1x1024x1024_0_1_2 : S1x1x1024.BroadcastsInDim S1x1024x1024 (![0, 1, 2] : Fin 3 → Fin S1x1024x1024.rank)
  bcast_S_S1x1024x1024 : S_.BroadcastsInDim S1x1024x1024 (![] : Fin 0 → Fin S1x1024x1024.rank)
  transposes_S128x139_S139x128_1_0 : S128x139.Transposes [1, 0] S139x128
  slices_S139x128_S66x128_0_0 : S139x128.Slices ![0, 0] S66x128
  slices_S139x128_S66x128_66_0 : S139x128.Slices ![66, 0] S66x128
  slices_S139x128_S1x128_132_0 : S139x128.Slices ![132, 0] S1x128
  shapeCasts_S1x128_S128 : S1x128.ShapeCasts S128
  slices_S139x128_S6x128_133_0 : S139x128.Slices ![133, 0] S6x128
  bcast_S1x1024x1024_S1x1024x1024x1_0_1_2 : S1x1024x1024.BroadcastsInDim S1x1024x1024x1 (![0, 1, 2] : Fin 3 → Fin S1x1024x1024x1.rank)
  bcast_S128_S1x1x1x128_3 : S128.BroadcastsInDim S1x1x1x128 (![3] : Fin 1 → Fin S1x1x1x128.rank)
  bcast_S1x1024x1024x1_S1x1024x1024x128_0_1_2_3 : S1x1024x1024x1.BroadcastsInDim S1x1024x1024x128 (![0, 1, 2, 3] : Fin 4 → Fin S1x1024x1024x128.rank)
  bcast_S1x1x1x128_S1x1024x1024x128_0_1_2_3 : S1x1x1x128.BroadcastsInDim S1x1024x1024x128 (![0, 1, 2, 3] : Fin 4 → Fin S1x1024x1024x128.rank)
  gather_S66x128_S1x1024x1024x1_S1x1024x1024x128_3_0_n_n_0_3_1128_wf : GatherDims.WF S66x128 S1x1024x1024x1 S1x1024x1024x128 [3] [0] [] [0] [] 3 ![1, 128]
  gather_S6x128_S1x1024x1024x1_S1x1024x1024x128_3_0_n_n_0_3_1128_wf : GatherDims.WF S6x128 S1x1024x1024x1 S1x1024x1024x128 [3] [0] [] [0] [] 3 ![1, 128]

variable [Facts₀]

def gather_S66x128_S1x1024x1024x1_S1x1024x1024x128_3_0_n_n_0_3_1128 : GatherDims S66x128 S1x1024x1024x1 S1x1024x1024x128 where
  offsetDims := [3]
  collapsedSliceDims := [0]
  operandBatchingDims := []
  startIndicesBatchingDims := []
  startIndexMap := [0]
  indexVectorDim := 3
  sliceSizes := ![1, 128]
  wf := gather_S66x128_S1x1024x1024x1_S1x1024x1024x128_3_0_n_n_0_3_1128_wf
def gather_S6x128_S1x1024x1024x1_S1x1024x1024x128_3_0_n_n_0_3_1128 : GatherDims S6x128 S1x1024x1024x1 S1x1024x1024x128 where
  offsetDims := [3]
  collapsedSliceDims := [0]
  operandBatchingDims := []
  startIndicesBatchingDims := []
  startIndexMap := [0]
  indexVectorDim := 3
  sliceSizes := ![1, 128]
  wf := gather_S6x128_S1x1024x1024x1_S1x1024x1024x128_3_0_n_n_0_3_1128_wf

class Facts : Prop extends Facts₀ where

variable [Facts]
-- ==== Proof.Spec.lean ====
/-
  One entry of the pair representation, as a function of the scalars it depends on.

  For a row token i, a column token j and a channel c the result depends on eight 32-bit words
  (residue, token, chain and entity ids of i and of j), on the two mask values, and on row c of the
  weight matrix, a function of the 139 feature columns: 66 residue-offset classes, 66 token-offset
  classes, one same-entity column and 6 chain-offset classes.

  Two formulas are stated here, each in the arrangement one program computes it in:

  * `kernelVal`: a one-hot vector over the first 133 columns (three indicator vectors added: the residue
    class, the token class shifted by 66, and column 132 or no column for the entity bit) contracted
    with the 133 leading weights, plus the chain term as a two-point interpolation
    s * (w_same - w_diff) + w_diff between columns 135 and 138, all times mask_i * mask_j;
  * `refVal`: four table look-ups w[p] + w[66 + t] + e * w[132] + w[133 + ch] at clamped indices, times
    mask_i * mask_j.

  That the two agree for finite weights is Algebra.lean's theorem.
-/
import Idealize.ShloMosaic.PureOps.Ideal
import Idealize.ShloMosaic.PureOps.Vector

noncomputable section

open scoped BigOperators

namespace Cert.Spec

open Idealize.ShloMosaic

/-- The equality bit of two words. -/
def eqBit (a b : BitVec 32) : BitVec 1 := IntOp.cmpi .eq a b

/-- The offset aj - ai shifted by `off` and clipped into [0, hi], all as signed 32-bit words. -/
def bucket (hi off ai aj : BitVec 32) : BitVec 32 :=
  IntOp.minsi hi (IntOp.maxsi 0#32 (IntOp.addi (IntOp.subi aj ai) off))

/-- The residue-offset class of the pair: the clipped offset in [0, 64] inside one chain, 65 across chains. -/
def posClass (ri rj ai aj : BitVec 32) : BitVec 32 :=
  Scalar.select (eqBit ai aj) (bucket 64#32 32#32 ri rj) 65#32

/-- The token-offset class: the clipped offset in [0, 64] inside one residue of one chain, 65 otherwise. -/
def tokClass (ri rj ti tj ai aj : BitVec 32) : BitVec 32 :=
  Scalar.select (IntOp.andi (eqBit ai aj) (eqBit ri rj)) (bucket 64#32 32#32 ti tj) 65#32

/-- The chain-offset class: the clipped chain offset in [0, 4] inside one chain (always 2 there), 5 across chains. -/
def chainClass (ai aj : BitVec 32) : BitVec 32 :=
  Scalar.select (eqBit ai aj) (bucket 4#32 2#32 ai aj) 5#32

/-- A one-bit word zero-extended to 32 bits and read as a signed integer: 0 or 1. -/
def bitS (b : BitVec 1) : EReal := (((b.setWidth 32).toInt : ℝ) : EReal)

/-- A one-bit word read as an unsigned integer: 0 or 1. -/
def bitU (b : BitVec 1) : EReal := ((b.toNat : ℝ) : EReal)

/-- The indicator of class word `d` at column `k`. -/
def oneHot (d : BitVec 32) (k : Fin 133) : EReal := bitS (IntOp.cmpi .eq (BitVec.ofNat 32 k.val) d)

/-- The entity class word: column 132 when the entity ids agree, the all-ones word (no column) otherwise. -/
def entClass (ei ej : BitVec 32) : BitVec 32 := Scalar.select (eqBit ei ej) 132#32 4294967295#32

/-- The one-hot contraction form. `tbl` is the 133 leading weights of the channel, `wS` and `wD` the weights of
    the same-chain and the other-chain column. -/
def kernelVal (ri rj ti tj ai aj ei ej : BitVec 32) (mi mj : EReal) (tbl : Fin 133 → EReal) (wS wD : EReal) : EReal :=
  ((∑ k : Fin 133, ((oneHot (posClass ri rj ai aj) k + oneHot (IntOp.addi (tokClass ri rj ti tj ai aj) 66#32) k)
        + oneHot (entClass ei ej) k) * tbl k)
    + (bitS (eqBit ai aj) * (wS - wD) + wD)) * (mi * mj)

/-- A table look-up's row: the class word, negative words wrapped by the table's length `n`, read signed and clamped
    into [0, n - 1]. -/
def lookup (n : Nat) (d : BitVec 32) : Nat :=
  min (Scalar.select (IntOp.cmpi .slt d 0#32) (IntOp.addi d (BitVec.ofNat 32 n)) d).toInt.toNat (n - 1)

theorem lookup_lt {n : Nat} (hn : 0 < n) (d : BitVec 32) : lookup n d < n := by
  unfold lookup; omega

/-- The four-look-up form. `w` is the channel's row of the weight matrix. -/
def refVal (ri rj ti tj ai aj ei ej : BitVec 32) (mi mj : EReal) (w : Fin 139 → EReal) : EReal :=
  (((w ⟨lookup 66 (posClass ri rj ai aj), by have := lookup_lt (n := 66) (by decide) (posClass ri rj ai aj); omega⟩
      + w ⟨66 + lookup 66 (tokClass ri rj ti tj ai aj), by have := lookup_lt (n := 66) (by decide) (tokClass ri rj ti tj ai aj); omega⟩)
      + bitU (eqBit ei ej) * w ⟨132, by decide⟩)
    + w ⟨133 + lookup 6 (chainClass ai aj), by have := lookup_lt (n := 6) (by decide) (chainClass ai aj); omega⟩) * (mi * mj)

end Cert.Spec

end
-- ==== Proof.HostPrefix.lean ====
/-
  The arrays the kernel's thirteen input windows are cut from, as the region finds them, read at an index in
  terms of the program's arguments.

  Before the region the program reshapes each of the five per-token arguments [1, 1024] through a flat [1024]
  into a column [1024, 1] and a row [1, 1024]: entry r of either is entry (0, r) of the argument. It transposes
  the weight matrix [128, 139] to [139, 128] and takes three row ranges of the transpose: rows 0 to 132 (the
  table, narrowed to a shorter float format, which changes no value over the extended reals), row 135 and
  row 138: entry (k, c) of a range starting at row k0 is entry (c, k0 + k) of the weight matrix.
-/
import proofs.«411382_j7619271983169_3_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.HostPrefix

open Cert.KernelIdeal Cert.KernelIdeal.Gen Idealize.ShloMosaic Idealize.ShloMosaic.ValueIdx Idealize.ShloMosaic.TcCoe
  Idealize.SL.Sem Idealize.ShloMosaic.StableHlo

/-- A row [1, 1024] flattened and stood up as a column [1024, 1]: entry (r, 0) is the row's entry (0, r), since
    both sit at flat position r. -/
theorem col_of_row {α : Type} (x : S1x1024.Idx → α) (h1 : S1x1024.ShapeCasts S1024) (h2 : S1024.ShapeCasts S1024x1)
    (r : Fin 1024) : shapeCast S1024x1 (shapeCast S1024 x h1) h2 (ix2 r 0) = x (ix2 0 r) := by
  rw [shapeCast_apply _ h2 (ix2 r 0) (ix1 r) (by
    rw [Shape.rowMajor_val_one, Shape.rowMajor_val_two]; show r.val = r.val * 1 + 0; omega)]
  exact shapeCast_apply _ h1 (ix1 r) (ix2 0 r) (by
    rw [Shape.rowMajor_val_one, Shape.rowMajor_val_two]; show 0 * 1024 + r.val = r.val; omega)

/-- A row [1, 1024] flattened and laid out as a row again is itself. -/
theorem row_of_row {α : Type} (x : S1x1024.Idx → α) (h1 : S1x1024.ShapeCasts S1024) (h2 : S1024.ShapeCasts S1x1024)
    (r : Fin 1024) : shapeCast S1x1024 (shapeCast S1024 x h1) h2 (ix2 0 r) = x (ix2 0 r) := by
  rw [shapeCast_apply _ h2 (ix2 0 r) (ix1 r) (by
    rw [Shape.rowMajor_val_one, Shape.rowMajor_val_two]; show r.val = 0 * 1024 + r.val; omega)]
  exact shapeCast_apply _ h1 (ix1 r) (ix2 0 r) (by
    rw [Shape.rowMajor_val_one, Shape.rowMajor_val_two]; show 0 * 1024 + r.val = r.val; omega)

/-- Rows k0 .. k0 + n - 1 of the transposed weight matrix: entry (k, c) is the matrix's entry (c, k0 + k). -/
theorem rows_of_transpose {n k0 : Nat} (x : S128x139.Idx → EReal) (ht : S128x139.Transposes [1, 0] S139x128)
    (hs : S139x128.Slices ![k0, 0] ⟨2, ![n, 128]⟩) (k : Fin n) (c : Fin 128) (hk : k0 + k.val < 139) :
    extractStridedSlice ⟨2, ![n, 128]⟩ ![k0, 0] (transpose S139x128 [1, 0] x ht) hs (ix2 k c) = x (ix2 c ⟨k0 + k.val, hk⟩) := by
  rw [extractStridedSlice_apply _ _ hs (ix2 k c) (ix2 ⟨k0 + k.val, hk⟩ c) (fun a => match a with
    | ⟨0, _⟩ => rfl
    | ⟨1, _⟩ => by show c.val = 0 + c.val; omega)]
  exact transpose_apply _ x ht (ix2 ⟨k0 + k.val, hk⟩ c) (ix2 c ⟨k0 + k.val, hk⟩) (fun b => match b with
    | ⟨0, _⟩ => rfl
    | ⟨1, _⟩ => rfl)

variable (m : (ℓ : Loc nD τ sig) → Buf (Elt Ideal) ℓ)

/-- The res column array [1024, 1] as the region finds it: entry (r, 0) is the argument's entry (0, r). -/
theorem V_res_col (c : Dev nD) (r : Fin 1024) :
    (V m c main_v5 : S1024x1.Idx → BitVec 32) (ix2 r 0) = (m ((c : Thread nD τ).loc main_arg0) : S1x1024.Idx → BitVec 32) (ix2 0 r) := by
  have e : (V m c main_v5 : S1024x1.Idx → BitVec 32)
      = shapeCast S1024x1 (shapeCast S1024 (m ((c : Thread nD τ).loc main_arg0)) shapeCasts_S1x1024_S1024) shapeCasts_S1024_S1024x1 := by
    show StableHlo.after hostOps0 (fun b => m (c, b)) (Proc.devRef .tc main_v5) = _
    after_results
    all_goals rfl
  rw [e]; exact col_of_row _ _ _ r

/-- The res row array [1, 1024] as the region finds it: entry (0, r) is the argument's entry (0, r). -/
theorem V_res_row (c : Dev nD) (r : Fin 1024) :
    (V m c main_v6 : S1x1024.Idx → BitVec 32) (ix2 0 r) = (m ((c : Thread nD τ).loc main_arg0) : S1x1024.Idx → BitVec 32) (ix2 0 r) := by
  have e : (V m c main_v6 : S1x1024.Idx → BitVec 32)
      = shapeCast S1x1024 (shapeCast S1024 (m ((c : Thread nD τ).loc main_arg0)) shapeCasts_S1x1024_S1024) shapeCasts_S1024_S1x1024 := by
    show StableHlo.after hostOps0 (fun b => m (c, b)) (Proc.devRef .tc main_v6) = _
    after_results
    all_goals rfl
  rw [e]; exact row_of_row _ _ _ r

/-- The tok column array [1024, 1] as the region finds it: entry (r, 0) is the argument's entry (0, r). -/
theorem V_tok_col (c : Dev nD) (r : Fin 1024) :
    (V m c main_v7 : S1024x1.Idx → BitVec 32) (ix2 r 0) = (m ((c : Thread nD τ).loc main_arg1) : S1x1024.Idx → BitVec 32) (ix2 0 r) := by
  have e : (V m c main_v7 : S1024x1.Idx → BitVec 32)
      = shapeCast S1024x1 (shapeCast S1024 (m ((c : Thread nD τ).loc main_arg1)) shapeCasts_S1x1024_S1024) shapeCasts_S1024_S1024x1 := by
    show StableHlo.after hostOps0 (fun b => m (c, b)) (Proc.devRef .tc main_v7) = _
    after_results
    all_goals rfl
  rw [e]; exact col_of_row _ _ _ r

/-- The tok row array [1, 1024] as the region finds it: entry (0, r) is the argument's entry (0, r). -/
theorem V_tok_row (c : Dev nD) (r : Fin 1024) :
    (V m c main_v8 : S1x1024.Idx → BitVec 32) (ix2 0 r) = (m ((c : Thread nD τ).loc main_arg1) : S1x1024.Idx → BitVec 32) (ix2 0 r) := by
  have e : (V m c main_v8 : S1x1024.Idx → BitVec 32)
      = shapeCast S1x1024 (shapeCast S1024 (m ((c : Thread nD τ).loc main_arg1)) shapeCasts_S1x1024_S1024) shapeCasts_S1024_S1x1024 := by
    show StableHlo.after hostOps0 (fun b => m (c, b)) (Proc.devRef .tc main_v8) = _
    after_results
    all_goals rfl
  rw [e]; exact row_of_row _ _ _ r

/-- The asym column array [1024, 1] as the region finds it: entry (r, 0) is the argument's entry (0, r). -/
theorem V_asym_col (c : Dev nD) (r : Fin 1024) :
    (V m c main_v9 : S1024x1.Idx → BitVec 32) (ix2 r 0) = (m ((c : Thread nD τ).loc main_arg2) : S1x1024.Idx → BitVec 32) (ix2 0 r) := by
  have e : (V m c main_v9 : S1024x1.Idx → BitVec 32)
      = shapeCast S1024x1 (shapeCast S1024 (m ((c : Thread nD τ).loc main_arg2)) shapeCasts_S1x1024_S1024) shapeCasts_S1024_S1024x1 := by
    show StableHlo.after hostOps0 (fun b => m (c, b)) (Proc.devRef .tc main_v9) = _
    after_results
    all_goals rfl
  rw [e]; exact col_of_row _ _ _ r

/-- The asym row array [1, 1024] as the region finds it: entry (0, r) is the argument's entry (0, r). -/
theorem V_asym_row (c : Dev nD) (r : Fin 1024) :
    (V m c main_v10 : S1x1024.Idx → BitVec 32) (ix2 0 r) = (m ((c : Thread nD τ).loc main_arg2) : S1x1024.Idx → BitVec 32) (ix2 0 r) := by
  have e : (V m c main_v10 : S1x1024.Idx → BitVec 32)
      = shapeCast S1x1024 (shapeCast S1024 (m ((c : Thread nD τ).loc main_arg2)) shapeCasts_S1x1024_S1024) shapeCasts_S1024_S1x1024 := by
    show StableHlo.after hostOps0 (fun b => m (c, b)) (Proc.devRef .tc main_v10) = _
    after_results
    all_goals rfl
  rw [e]; exact row_of_row _ _ _ r

/-- The ent column array [1024, 1] as the region finds it: entry (r, 0) is the argument's entry (0, r). -/
theorem V_ent_col (c : Dev nD) (r : Fin 1024) :
    (V m c main_v11 : S1024x1.Idx → BitVec 32) (ix2 r 0) = (m ((c : Thread nD τ).loc main_arg3) : S1x1024.Idx → BitVec 32) (ix2 0 r) := by
  have e : (V m c main_v11 : S1024x1.Idx → BitVec 32)
      = shapeCast S1024x1 (shapeCast S1024 (m ((c : Thread nD τ).loc main_arg3)) shapeCasts_S1x1024_S1024) shapeCasts_S1024_S1024x1 := by
    show StableHlo.after hostOps0 (fun b => m (c, b)) (Proc.devRef .tc main_v11) = _
    after_results
    all_goals rfl
  rw [e]; exact col_of_row _ _ _ r

/-- The ent row array [1, 1024] as the region finds it: entry (0, r) is the argument's entry (0, r). -/
theorem V_ent_row (c : Dev nD) (r : Fin 1024) :
    (V m c main_v12 : S1x1024.Idx → BitVec 32) (ix2 0 r) = (m ((c : Thread nD τ).loc main_arg3) : S1x1024.Idx → BitVec 32) (ix2 0 r) := by
  have e : (V m c main_v12 : S1x1024.Idx → BitVec 32)
      = shapeCast S1x1024 (shapeCast S1024 (m ((c : Thread nD τ).loc main_arg3)) shapeCasts_S1x1024_S1024) shapeCasts_S1024_S1x1024 := by
    show StableHlo.after hostOps0 (fun b => m (c, b)) (Proc.devRef .tc main_v12) = _
    after_results
    all_goals rfl
  rw [e]; exact row_of_row _ _ _ r

/-- The mask column array [1024, 1] as the region finds it: entry (r, 0) is the argument's entry (0, r). -/
theorem V_mask_col (c : Dev nD) (r : Fin 1024) :
    (V m c main_v13 : S1024x1.Idx → EReal) (ix2 r 0) = (m ((c : Thread nD τ).loc main_arg4) : S1x1024.Idx → EReal) (ix2 0 r) := by
  have e : (V m c main_v13 : S1024x1.Idx → EReal)
      = shapeCast S1024x1 (shapeCast S1024 (m ((c : Thread nD τ).loc main_arg4)) shapeCasts_S1x1024_S1024) shapeCasts_S1024_S1024x1 := by
    show StableHlo.after hostOps0 (fun b => m (c, b)) (Proc.devRef .tc main_v13) = _
    after_results
    all_goals rfl
  rw [e]; exact col_of_row _ _ _ r

/-- The mask row array [1, 1024] as the region finds it: entry (0, r) is the argument's entry (0, r). -/
theorem V_mask_row (c : Dev nD) (r : Fin 1024) :
    (V m c main_v14 : S1x1024.Idx → EReal) (ix2 0 r) = (m ((c : Thread nD τ).loc main_arg4) : S1x1024.Idx → EReal) (ix2 0 r) := by
  have e : (V m c main_v14 : S1x1024.Idx → EReal)
      = shapeCast S1x1024 (shapeCast S1024 (m ((c : Thread nD τ).loc main_arg4)) shapeCasts_S1x1024_S1024) shapeCasts_S1024_S1x1024 := by
    show StableHlo.after hostOps0 (fun b => m (c, b)) (Proc.devRef .tc main_v14) = _
    after_results
    all_goals rfl
  rw [e]; exact row_of_row _ _ _ r

/-- The table [133, 128] as the region finds it: entry (k, c) is the weight matrix's entry (c, k). -/
theorem V_table (c : Dev nD) (k : Fin 133) (ch : Fin 128) :
    (V m c main_v17 : S133x128.Idx → EReal) (ix2 k ch)
      = (m ((c : Thread nD τ).loc main_arg5) : S128x139.Idx → EReal) (ix2 ch ⟨k.val, by omega⟩) := by
  have e : (V m c main_v17 : S133x128.Idx → EReal)
      = truncf (F := Ideal) .bf16 (extractStridedSlice S133x128 ![0, 0] (transpose S139x128 [1, 0] (m ((c : Thread nD τ).loc main_arg5))
          transposes_S128x139_S139x128_1_0) slices_S139x128_S133x128_0_0) bitsLt_bf16_f32 := by
    show StableHlo.after hostOps0 (fun b => m (c, b)) (Proc.devRef .tc main_v17) = _
    after_results
    all_goals rfl
  rw [e]
  show extractStridedSlice S133x128 ![0, 0] (transpose S139x128 [1, 0] (m ((c : Thread nD τ).loc main_arg5))
      transposes_S128x139_S139x128_1_0) slices_S139x128_S133x128_0_0 (ix2 k ch) = _
  rw [rows_of_transpose (n := 133) (k0 := 0) _ _ _ k ch (by omega)]
  exact congrArg _ (congrArg (ix2 ch) (Fin.ext (by show 0 + k.val = k.val; omega)))

/-- The same-chain weight row [1, 128] as the region finds it: entry (0, c) is the weight matrix's entry (c, 135). -/
theorem V_wSame (c : Dev nD) (ch : Fin 128) :
    (V m c main_v18 : S1x128.Idx → EReal) (ix2 0 ch)
      = (m ((c : Thread nD τ).loc main_arg5) : S128x139.Idx → EReal) (ix2 ch ⟨135, by decide⟩) := by
  have e : (V m c main_v18 : S1x128.Idx → EReal)
      = extractStridedSlice S1x128 ![135, 0] (transpose S139x128 [1, 0] (m ((c : Thread nD τ).loc main_arg5))
          transposes_S128x139_S139x128_1_0) slices_S139x128_S1x128_135_0 := by
    show StableHlo.after hostOps0 (fun b => m (c, b)) (Proc.devRef .tc main_v18) = _
    after_results
    all_goals rfl
  rw [e]
  exact rows_of_transpose (n := 1) (k0 := 135) _ _ _ 0 ch (by decide)

/-- The other-chain weight row [1, 128] as the region finds it: entry (0, c) is the weight matrix's entry (c, 138). -/
theorem V_wDiff (c : Dev nD) (ch : Fin 128) :
    (V m c main_v19 : S1x128.Idx → EReal) (ix2 0 ch)
      = (m ((c : Thread nD τ).loc main_arg5) : S128x139.Idx → EReal) (ix2 ch ⟨138, by decide⟩) := by
  have e : (V m c main_v19 : S1x128.Idx → EReal)
      = extractStridedSlice S1x128 ![138, 0] (transpose S139x128 [1, 0] (m ((c : Thread nD τ).loc main_arg5))
          transposes_S128x139_S139x128_1_0) slices_S139x128_S1x128_138_0 := by
    show StableHlo.after hostOps0 (fun b => m (c, b)) (Proc.devRef .tc main_v19) = _
    after_results
    all_goals rfl
  rw [e]
  exact rows_of_transpose (n := 1) (k0 := 138) _ _ _ 0 ch (by decide)

end Cert.KernelIdeal.HostPrefix

end
-- ==== Proof.KernelPayload.lean ====
import proofs.«411382_j7619271983169_3_alg».proof.Proof.Gen.KernelIdeal.Frame
import proofs.«411382_j7619271983169_3_alg».proof.Proof.Spec
import Idealize.ShloMosaic.Lib.ValueIdx
import Idealize.ShloMosaic.Lib.ValueLayout
import Idealize.ShloMosaic.Lib.Pipeline.Value
import Idealize.ShloMosaic.PureOps.Ideal.Laws

/-!
  The value the kernel body stores at one index `(p, q, c)` of its `[128, 128, 128]` output block, as the scalar formula
  `Cert.Spec.kernelVal` of the words, masks and weights that index depends on.

  The body forms, for each pair `(p, q)`, three indicator rows over 133 columns (residue class, token class shifted by 66,
  entity class), adds them, multiplies the `[16384, 133]` matrix of these rows by the `[133, 128]` weight table, and adds
  the chain term `s * (w_same - w_diff) + w_diff`; the result is scaled by the product of the two masks. Each layout
  operation (broadcast of a column, a row or a trailing unit axis; the row-major merge and split of the two leading
  axes) is read at an index given by its coordinates, the matrix product as the sum over its 133 contracted coordinates.
-/

noncomputable section

namespace Cert.KernelIdeal.Payload

open Cert.KernelIdeal Cert.KernelIdeal.Gen Idealize.ShloMosaic Idealize.ShloMosaic.ValueIdx

/-! ## Layout operations at an index given by coordinates -/

section Layout
variable {α : Type}

/-- The zero offsets of a rank-2 rectangle. -/
theorem hz2 : (![0, 0] : Fin 2 → Nat) = fun _ => 0 := funext fun a => by fin_cases a <;> rfl
/-- The zero offsets of a rank-3 rectangle. -/
theorem hz3 : (![0, 0, 0] : Fin 3 → Nat) = fun _ => 0 := funext fun a => by fin_cases a <;> rfl

/-- A column `[a, 1]` broadcast to `[a, b]` reads, at `(p, q)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- An `[a, b, 1]` array broadcast to `[a, b, n]` reads, at `(p, q, k)`, the operand at `(p, q, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (p : Fin a) (q : Fin b) (k : Fin n) :
    broadcastTo ⟨3, ![a, b, n]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `[1, 1, n]` array broadcast to `[a, b, n]` reads, at `(p, q, k)`, the operand at `(0, 0, k)`. -/
theorem broadcastTo_11n_abn_apply {a b n : ℕ} (v : (⟨3, ![1, 1, n]⟩ : Shape).Idx → α)
    (h : (⟨3, ![1, 1, n]⟩ : Shape).Broadcasts ⟨3, ![a, b, n]⟩) (p : Fin a) (q : Fin b) (k : Fin n) :
    broadcastTo ⟨3, ![a, b, n]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if n = 1 then 0 else k.val
    split
    · have := k.isLt; omega
    · rfl

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, n]` array cast to `[m, n]` (the two leading axes merged, row-major) reads, at `(r, k)` with
    `r = p * b + q`, the operand at `(p, q, k)`. -/
theorem shapeCast_abn_mn_apply {a b n m : ℕ} (x : (⟨3, ![a, b, n]⟩ : Shape).Idx → α)
    (h : (⟨3, ![a, b, n]⟩ : Shape).ShapeCasts ⟨2, ![m, n]⟩) (p : Fin a) (q : Fin b) (k : Fin n) (r : Fin m)
    (hr : r.val = p.val * b + q.val) :
    shapeCast ⟨2, ![m, n]⟩ x h (ix2 r k) = x (ix3 p q k) :=
  shapeCast_apply x h _ _ (by
    rw [Shape.rowMajor_val_three, Shape.rowMajor_val_two]
    show (p.val * b + q.val) * n + k.val = r.val * n + k.val
    rw [hr])

/-- An `[m, n]` array cast to `[a, b, n]` (the leading axis split, row-major) reads, at `(p, q, k)`, the operand at
    `(r, k)` with `r = p * b + q`. -/
theorem shapeCast_mn_abn_apply {a b n m : ℕ} (x : (⟨2, ![m, n]⟩ : Shape).Idx → α)
    (h : (⟨2, ![m, n]⟩ : Shape).ShapeCasts ⟨3, ![a, b, n]⟩) (p : Fin a) (q : Fin b) (k : Fin n) (r : Fin m)
    (hr : r.val = p.val * b + q.val) :
    shapeCast ⟨3, ![a, b, n]⟩ x h (ix3 p q k) = x (ix2 r k) :=
  shapeCast_apply x h _ _ (by
    rw [Shape.rowMajor_val_three, Shape.rowMajor_val_two]
    show r.val * n + k.val = (p.val * b + q.val) * n + k.val
    rw [hr])

end Layout

/-- The row of the `[16384, ·]` matrices that holds the pair `(p, q)`: row-major over `[128, 128]`. -/
def row (p q : Fin 128) : Fin 16384 := ⟨p.val * 128 + q.val, by have := p.isLt; have := q.isLt; omega⟩

theorem row_val (p q : Fin 128) : (row p q).val = p.val * 128 + q.val := rfl

/-- The lane counter along the last axis of `[1, 1, 133]` reads its coordinate. -/
theorem iota_apply (h : S1x1x133.Iotas .tc 32 [2]) (k : Fin 133) :
    iota .tc S1x1x133 32 [2] h (ix3 (0 : Fin 1) (0 : Fin 1) k) = BitVec.ofNat 32 k.val :=
  iota_single_apply .tc S1x1x133 32 (2 : Fin 3) h (ix3 (0 : Fin 1) (0 : Fin 1) k)

/-! ## The matrix product at an index -/

/-- Axis 0 of the left operand's index is the output row. -/
theorem lhs_mm_0 (i : S16384x128.Idx) (q : dot_S16384x133_S133x128_S16384x128_1_0_0_1_n_n.contr.Idx) :
    (dot_S16384x133_S133x128_S16384x128_1_0_0_1_n_n.lhsIdx i q 0).val = (i 0).val := by
  unfold DotDims.lhsIdx
  rw [dif_neg (show ¬(0 : Fin S16384x133.rank) ∈ dot_S16384x133_S133x128_S16384x128_1_0_0_1_n_n.lhsBatch by decide), dif_pos (show (0 : Fin S16384x133.rank) ∈ dot_S16384x133_S133x128_S16384x128_1_0_0_1_n_n.lhsNonContracting by decide)]
  rfl
/-- Axis 1 of the left operand's index is the contracted coordinate. -/
theorem lhs_mm_1 (i : S16384x128.Idx) (q : dot_S16384x133_S133x128_S16384x128_1_0_0_1_n_n.contr.Idx) :
    (dot_S16384x133_S133x128_S16384x128_1_0_0_1_n_n.lhsIdx i q 1).val = (q ⟨0, by decide⟩).val :=
  dot_S16384x133_S133x128_S16384x128_1_0_0_1_n_n.lhsIdx_val_of_single rfl i q
/-- Axis 0 of the right operand's index is the contracted coordinate. -/
theorem rhs_mm_0 (i : S16384x128.Idx) (q : dot_S16384x133_S133x128_S16384x128_1_0_0_1_n_n.contr.Idx) :
    (dot_S16384x133_S133x128_S16384x128_1_0_0_1_n_n.rhsIdx i q 0).val = (q ⟨0, by decide⟩).val :=
  dot_S16384x133_S133x128_S16384x128_1_0_0_1_n_n.rhsIdx_val_of_single rfl i q
/-- Axis 1 of the right operand's index is the output column. -/
theorem rhs_mm_1 (i : S16384x128.Idx) (q : dot_S16384x133_S133x128_S16384x128_1_0_0_1_n_n.contr.Idx) :
    (dot_S16384x133_S133x128_S16384x128_1_0_0_1_n_n.rhsIdx i q 1).val = (i 1).val := by
  unfold DotDims.rhsIdx
  rw [dif_neg (show ¬(1 : Fin S133x128.rank) ∈ dot_S16384x133_S133x128_S16384x128_1_0_0_1_n_n.rhsBatch by decide), dif_pos (show (1 : Fin S133x128.rank) ∈ dot_S16384x133_S133x128_S16384x128_1_0_0_1_n_n.rhsNonContracting by decide)]
  rfl

/-- The `[16384, 133] × [133, 128]` product into the zero accumulator, at `(r, c)`: the sum over the 133 contracted
    coordinates of the left operand's row `r` times the right operand's column `c`. -/
theorem matmul_ix_apply (L : FVec Ideal S16384x133 .bf16) (R : FVec Ideal S133x128 .bf16) (r : Fin 16384) (c : Fin 128) :
    matmul dot_S16384x133_S133x128_S16384x128_1_0_0_1_n_n none L R (constant (F := Ideal) S16384x128 .f32 0x00000000#32) (ix2 r c)
      = ∑ k : Fin 133, L (ix2 r k) * R (ix2 k c) := by
  simp only [matmul]
  rw [Ideal.matmul_constant_zero_apply, ← Equiv.sum_comp (contrEquiv1 dot_S16384x133_S133x128_S16384x128_1_0_0_1_n_n 133 rfl rfl).symm]
  refine Finset.sum_congr rfl fun k _ => ?_
  have hk := contrEquiv1_symm_val dot_S16384x133_S133x128_S16384x128_1_0_0_1_n_n 133 rfl rfl k
  have el : dot_S16384x133_S133x128_S16384x128_1_0_0_1_n_n.lhsIdx (ix2 r c) ((contrEquiv1 dot_S16384x133_S133x128_S16384x128_1_0_0_1_n_n 133 rfl rfl).symm k) = ix2 r k := funext fun a => Fin.ext (by
    match a with
    | ⟨0, _⟩ => exact lhs_mm_0 _ _
    | ⟨1, _⟩ => exact (lhs_mm_1 _ _).trans hk)
  have er : dot_S16384x133_S133x128_S16384x128_1_0_0_1_n_n.rhsIdx (ix2 r c) ((contrEquiv1 dot_S16384x133_S133x128_S16384x128_1_0_0_1_n_n 133 rfl rfl).symm k) = ix2 k c := funext fun a => Fin.ext (by
    match a with
    | ⟨0, _⟩ => exact (rhs_mm_0 _ _).trans hk
    | ⟨1, _⟩ => exact rhs_mm_1 _ _)
  rw [el, er]

/-! ## The integer payloads at an index -/

/-- The row vector of a `[1, 128]` block of words, cast to its own shape, at `(0, q)`. -/
theorem pay3_apply (v2 : Vec Ideal S1x128 .i32) (q : Fin 128) :
    k0_pay3 (F := Ideal) v2 (ix2 (0 : Fin 1) q) = v2 (ix2 (0 : Fin 1) q) := by
  unfold k0_pay3
  exact congrFun (shapeCast_self v2 _) _

/-- The column vector of a `[128, 1]` block of words, cast to its own shape, at `(p, 0)`. -/
theorem pay2_apply (v0 : Vec Ideal S128x1 .i32) (p : Fin 128) :
    k0_pay2 (F := Ideal) v0 (ix2 p (0 : Fin 1)) = v0 (ix2 p (0 : Fin 1)) := by
  unfold k0_pay2
  exact congrFun (shapeCast_self v0 _) _

theorem pay4_apply (v4 : Vec Ideal S128x1 .i32) (p : Fin 128) :
    k0_pay4 (F := Ideal) v4 (ix2 p (0 : Fin 1)) = v4 (ix2 p (0 : Fin 1)) := by
  unfold k0_pay4
  exact congrFun (shapeCast_self v4 _) _

theorem pay5_apply (v6 : Vec Ideal S1x128 .i32) (q : Fin 128) :
    k0_pay5 (F := Ideal) v6 (ix2 (0 : Fin 1) q) = v6 (ix2 (0 : Fin 1) q) := by
  unfold k0_pay5
  exact congrFun (shapeCast_self v6 _) _

theorem pay6_apply (v16 : Vec Ideal S128x1 .f32) (p : Fin 128) :
    k0_pay6 (F := Ideal) v16 (ix2 p (0 : Fin 1)) = v16 (ix2 p (0 : Fin 1)) := by
  unfold k0_pay6
  exact congrFun (shapeCast_self v16 _) _

theorem pay7_apply (v18 : Vec Ideal S1x128 .f32) (q : Fin 128) :
    k0_pay7 (F := Ideal) v18 (ix2 (0 : Fin 1) q) = v18 (ix2 (0 : Fin 1) q) := by
  unfold k0_pay7
  exact congrFun (shapeCast_self v18 _) _

theorem pay14_apply (v82 : Vec Ideal S133x128 .bf16) (k : Fin 133) (c : Fin 128) :
    k0_pay14 (F := Ideal) v82 (ix2 k c) = v82 (ix2 k c) := by
  unfold k0_pay14
  exact congrFun (shapeCast_self v82 _) _

/-- The equality bit of a column of words against a row of words, both broadcast over the `[128, 128]` pairs. -/
theorem eq_col_row_apply (a : IVec S128x1 32) (b : IVec S1x128 32) (p q : Fin 128) :
    cmpi .eq (broadcastTo S128x128 a broadcasts_S128x1_S128x128) (broadcastTo S128x128 b broadcasts_S1x128_S128x128) (ix2 p q)
      = Cert.Spec.eqBit (a (ix2 p (0 : Fin 1))) (b (ix2 (0 : Fin 1) q)) := by
  show IntOp.cmpi .eq (broadcastTo S128x128 a broadcasts_S128x1_S128x128 (ix2 p q)) (broadcastTo S128x128 b broadcasts_S1x128_S128x128 (ix2 p q)) = _
  rw [broadcastTo_a1_ab_apply, broadcastTo_1b_ab_apply]
  rfl

theorem pay8_apply (v8 : Vec Ideal S128x1 .i32) (v10 : Vec Ideal S1x128 .i32) (p q : Fin 128) :
    k0_pay8 (F := Ideal) v8 v10 (ix2 p q) = Cert.Spec.eqBit (v8 (ix2 p (0 : Fin 1))) (v10 (ix2 (0 : Fin 1) q)) := by
  unfold k0_pay8
  refine (eq_col_row_apply _ _ p q).trans ?_
  rw [shapeCast_self, shapeCast_self]

theorem pay10_apply (v12 : Vec Ideal S128x1 .i32) (v14 : Vec Ideal S1x128 .i32) (p q : Fin 128) :
    k0_pay10 (F := Ideal) v12 v14 (ix2 p q) = Cert.Spec.eqBit (v12 (ix2 p (0 : Fin 1))) (v14 (ix2 (0 : Fin 1) q)) := by
  unfold k0_pay10
  refine (eq_col_row_apply _ _ p q).trans ?_
  rw [shapeCast_self, shapeCast_self]

theorem pay9_apply (v0 : Vec Ideal S128x1 .i32) (v2 : Vec Ideal S1x128 .i32) (p q : Fin 128) :
    k0_pay9 (F := Ideal) v0 v2 (ix2 p q) = Cert.Spec.eqBit (v0 (ix2 p (0 : Fin 1))) (v2 (ix2 (0 : Fin 1) q)) := by
  unfold k0_pay9
  refine (eq_col_row_apply _ _ p q).trans ?_
  rw [pay2_apply, pay3_apply]

/-- The offset of a row of words from a column of words, shifted by 32, over the `[128, 128]` pairs. -/
theorem pay11_apply (v0 : Vec Ideal S128x1 .i32) (v2 : Vec Ideal S1x128 .i32) (p q : Fin 128) :
    k0_pay11 (F := Ideal) v0 v2 (ix2 p q)
      = IntOp.addi (IntOp.subi (v2 (ix2 (0 : Fin 1) q)) (v0 (ix2 p (0 : Fin 1)))) 32#32 := by
  unfold k0_pay11
  show IntOp.addi (IntOp.subi (broadcastTo S128x128 (k0_pay3 (F := Ideal) v2) broadcasts_S1x128_S128x128 (ix2 p q))
      (broadcastTo S128x128 (k0_pay2 (F := Ideal) v0) broadcasts_S128x1_S128x128 (ix2 p q))) 32#32 = _
  rw [broadcastTo_a1_ab_apply, broadcastTo_1b_ab_apply, pay2_apply, pay3_apply]

theorem pay12_apply (p q : Fin 128) : k0_pay12 (ix2 p q) = 0#32 := rfl

/-! ## The one-hot rows -/

/-- The indicator vector of a `[128, 128]` array of class words over 133 columns, as the body builds it: the lane counter
    compared with the class word, widened, converted and narrowed. -/
def hot (d : IVec S128x128 32) : FVec Ideal S128x128x133 .bf16 :=
  truncf .bf16 (sitofp .f32 (extui 32 (cmpi .eq
    (broadcastTo S128x128x133 (iota .tc S1x1x133 32 [2] iota_S1x1x133_d2_w32) broadcasts_S1x1x133_S128x128x133)
    (broadcastTo S128x128x133 (shapeCast S128x128x1 d shapeCasts_S128x128_S128x128x1) broadcasts_S128x128x1_S128x128x133))
    natLt_1_32)) bitsLt_bf16_f32

/-- At `(p, q, k)` it is the indicator of the pair's class word at column `k`. -/
theorem hot_apply (d : IVec S128x128 32) (p q : Fin 128) (k : Fin 133) :
    hot d (ix3 p q k) = Cert.Spec.oneHot (d (ix2 p q)) k := by
  unfold hot
  show ((((IntOp.cmpi .eq
      (broadcastTo S128x128x133 (iota .tc S1x1x133 32 [2] iota_S1x1x133_d2_w32) broadcasts_S1x1x133_S128x128x133 (ix3 p q k))
      (broadcastTo S128x128x133 (shapeCast S128x128x1 d shapeCasts_S128x128_S128x128x1) broadcasts_S128x128x1_S128x128x133 (ix3 p q k))).setWidth 32).toInt : ℝ) : EReal) = _
  rw [broadcastTo_11n_abn_apply, broadcastTo_ab1_abn_apply, shapeCast_ab_ab1_apply, iota_apply]
  rfl

/-- The body's left operand of the product is the three indicator vectors added, its two leading axes merged. -/
theorem pay13_eq (v5 : IVec S128x1 32) (v7 : IVec S1x128 32) (v22 v25 v28 : IVec S128x128 1) (v33 : IVec S128x128 32)
    (c64 : BitVec 32) (v34 : IVec S128x128 32) :
    k0_pay13 (F := Ideal) v5 v7 v22 v25 v28 v33 c64 v34
      = shapeCast S16384x133 (addf (addf
          (hot (select v22 (minsi (broadcast S128x128 c64) (maxsi v34 v33)) (broadcast S128x128 65#32)))
          (hot (addi (select (andi v22 v25)
            (minsi (broadcast S128x128 64#32) (maxsi (broadcast S128x128 0#32)
              (addi (subi (broadcastTo S128x128 v7 broadcasts_S1x128_S128x128) (broadcastTo S128x128 v5 broadcasts_S128x1_S128x128))
                (broadcast S128x128 32#32))))
            (broadcast S128x128 65#32)) (broadcast S128x128 66#32))))
          (hot (select v28 (broadcast S128x128 132#32) (broadcast S128x128 4294967295#32))))
        shapeCasts_S128x128x133_S16384x133 := rfl

/-- The left operand at row `(p, q)` and column `k`: the indicators of the residue class, of the token class shifted by
    66, and of the entity class, added. -/
theorem pay13_apply (v5 : IVec S128x1 32) (v7 : IVec S1x128 32) (v22 v25 v28 : IVec S128x128 1) (v33 : IVec S128x128 32)
    (c64 : BitVec 32) (v34 : IVec S128x128 32) (p q : Fin 128) (k : Fin 133) :
    k0_pay13 (F := Ideal) v5 v7 v22 v25 v28 v33 c64 v34 (ix2 (row p q) k)
      = (Cert.Spec.oneHot (Scalar.select (v22 (ix2 p q)) (IntOp.minsi c64 (IntOp.maxsi (v34 (ix2 p q)) (v33 (ix2 p q)))) 65#32) k
          + Cert.Spec.oneHot (IntOp.addi (Scalar.select (IntOp.andi (v22 (ix2 p q)) (v25 (ix2 p q)))
              (IntOp.minsi 64#32 (IntOp.maxsi 0#32 (IntOp.addi (IntOp.subi (v7 (ix2 (0 : Fin 1) q)) (v5 (ix2 p (0 : Fin 1)))) 32#32))) 65#32) 66#32) k)
        + Cert.Spec.oneHot (Scalar.select (v28 (ix2 p q)) 132#32 4294967295#32) k := by
  rw [pay13_eq]
  refine (shapeCast_abn_mn_apply _ _ p q k (row p q) (row_val p q)).trans ?_
  rw [addf_apply, addf_apply, hot_apply, hot_apply, hot_apply]
  show (Cert.Spec.oneHot (Scalar.select (v22 (ix2 p q)) (IntOp.minsi c64 (IntOp.maxsi (v34 (ix2 p q)) (v33 (ix2 p q)))) 65#32) k
          + Cert.Spec.oneHot (IntOp.addi (Scalar.select (IntOp.andi (v22 (ix2 p q)) (v25 (ix2 p q)))
              (IntOp.minsi 64#32 (IntOp.maxsi 0#32 (IntOp.addi (IntOp.subi (broadcastTo S128x128 v7 broadcasts_S1x128_S128x128 (ix2 p q))
                (broadcastTo S128x128 v5 broadcasts_S128x1_S128x128 (ix2 p q))) 32#32))) 65#32) 66#32) k)
        + Cert.Spec.oneHot (Scalar.select (v28 (ix2 p q)) 132#32 4294967295#32) k = _
  rw [broadcastTo_a1_ab_apply, broadcastTo_1b_ab_apply]

/-! ## The stored value at an index -/

/-- The stored value at `(p, q, c)`, over any operands of the product: the product's row `(p, q)` against column `c`,
    plus the chain term interpolated between the two weight rows, all times the two masks. -/
theorem pay1_apply (v17 : FVec Ideal S128x1 .f32) (v19 : FVec Ideal S1x128 .f32) (v22 : IVec S128x128 1)
    (v81 : FVec Ideal S16384x133 .bf16) (v83 : FVec Ideal S133x128 .bf16) (v86 v89 : Vec Ideal S1x128 .f32) (p q c : Fin 128) :
    k0_pay1 v17 v19 v22 v81 v83 (constant (F := Ideal) S16384x128 .f32 0x00000000#32) v86 v89 (ix3 p q c)
      = ((∑ k : Fin 133, v81 (ix2 (row p q) k) * v83 (ix2 k c))
          + (Cert.Spec.bitS (v22 (ix2 p q)) * (v86 (ix2 (0 : Fin 1) c) - v89 (ix2 (0 : Fin 1) c)) + v89 (ix2 (0 : Fin 1) c)))
        * (v17 (ix2 p (0 : Fin 1)) * v19 (ix2 (0 : Fin 1) q)) := by
  unfold k0_pay1
  show ((shapeCast S128x128x128 (matmul dot_S16384x133_S133x128_S16384x128_1_0_0_1_n_n none v81 v83 (constant (F := Ideal) S16384x128 .f32 0x00000000#32)) shapeCasts_S16384x128_S128x128x128 (ix3 p q c))
      + ((broadcastTo S128x128x128 (shapeCast S128x128x1 (sitofp (F := Ideal) .f32 (extui 32 v22 natLt_1_32)) shapeCasts_S128x128_S128x128x1) broadcasts_S128x128x1_S128x128x128 (ix3 p q c))
          * (broadcastTo S128x128x128 (subf (shapeCast S1x1x128 (shapeCast S1x128 v86 shapeCasts_S1x128_S1x128) shapeCasts_S1x128_S1x1x128) (shapeCast S1x1x128 (shapeCast S1x128 v89 shapeCasts_S1x128_S1x128) shapeCasts_S1x128_S1x1x128)) broadcasts_S1x1x128_S128x128x128 (ix3 p q c))
        + (broadcastTo S128x128x128 (shapeCast S1x1x128 (shapeCast S1x128 v89 shapeCasts_S1x128_S1x128) shapeCasts_S1x128_S1x1x128) broadcasts_S1x1x128_S128x128x128 (ix3 p q c))))
    * (broadcastTo S128x128x128 (shapeCast S128x128x1 (mulf (broadcastTo S128x128 v17 broadcasts_S128x1_S128x128) (broadcastTo S128x128 v19 broadcasts_S1x128_S128x128)) shapeCasts_S128x128_S128x128x1) broadcasts_S128x128x1_S128x128x128 (ix3 p q c)) = _
  rw [shapeCast_mn_abn_apply _ _ p q c (row p q) (row_val p q), matmul_ix_apply,
    broadcastTo_ab1_abn_apply, broadcastTo_ab1_abn_apply, broadcastTo_11n_abn_apply, broadcastTo_11n_abn_apply,
    shapeCast_ab_ab1_apply, shapeCast_ab_ab1_apply, subf_apply, shapeCast_ab_1ab_apply, shapeCast_ab_1ab_apply,
    shapeCast_self, shapeCast_self, mulf_apply, broadcastTo_a1_ab_apply, broadcastTo_1b_ab_apply]
  rfl

/-- The body's one store covers the whole block, and its loads read the whole input blocks: the block the body leaves is
    the stored value as a term of the input blocks. -/
theorem out0_13_eq (x0 : Vec Ideal S128x1 .i32) (x1 : Vec Ideal S1x128 .i32) (x2 : Vec Ideal S128x1 .i32) (x3 : Vec Ideal S1x128 .i32)
    (x4 : Vec Ideal S128x1 .i32) (x5 : Vec Ideal S1x128 .i32) (x6 : Vec Ideal S128x1 .i32) (x7 : Vec Ideal S1x128 .i32)
    (x8 : Vec Ideal S128x1 .f32) (x9 : Vec Ideal S1x128 .f32) (x10 : Vec Ideal S133x128 .bf16) (x11 x12 : Vec Ideal S1x128 .f32) :
    out0_13 (F := Ideal) x0 x1 x2 x3 x4 x5 x6 x7 x8 x9 x10 x11 x12
      = k0_pay1 (k0_pay6 x8) (k0_pay7 x9) (k0_pay8 x4 x5)
          (k0_pay13 (F := Ideal) (k0_pay4 x2) (k0_pay5 x3) (k0_pay8 x4 x5) (k0_pay9 x0 x1) (k0_pay10 x6 x7) (k0_pay11 x0 x1) 64#32 k0_pay12)
          (k0_pay14 x10) (constant (F := Ideal) S16384x128 .f32 0x00000000#32) x11 x12 := by
  unfold out0_13
  rw [View.canon_unit_zero hz3]
  simp only [View.ld_unit_zero (S := S128x1) hz2, View.ld_unit_zero (S := S1x128) hz2, View.ld_unit_zero (S := S133x128) hz2]

/-- THE BODY'S VALUE AT AN INDEX of its output block: the one-hot contraction form of the scalars the index depends on. -/
theorem out0_13_apply (x0 : Vec Ideal S128x1 .i32) (x1 : Vec Ideal S1x128 .i32) (x2 : Vec Ideal S128x1 .i32) (x3 : Vec Ideal S1x128 .i32)
    (x4 : Vec Ideal S128x1 .i32) (x5 : Vec Ideal S1x128 .i32) (x6 : Vec Ideal S128x1 .i32) (x7 : Vec Ideal S1x128 .i32)
    (x8 : Vec Ideal S128x1 .f32) (x9 : Vec Ideal S1x128 .f32) (x10 : Vec Ideal S133x128 .bf16) (x11 x12 : Vec Ideal S1x128 .f32)
    (p q c : Fin 128) :
    out0_13 (F := Ideal) x0 x1 x2 x3 x4 x5 x6 x7 x8 x9 x10 x11 x12 (ix3 p q c)
      = Cert.Spec.kernelVal (x0 (ix2 p 0)) (x1 (ix2 0 q)) (x2 (ix2 p 0)) (x3 (ix2 0 q)) (x4 (ix2 p 0)) (x5 (ix2 0 q))
          (x6 (ix2 p 0)) (x7 (ix2 0 q)) (x8 (ix2 p 0)) (x9 (ix2 0 q)) (fun k => x10 (ix2 k c)) (x11 (ix2 0 c)) (x12 (ix2 0 c)) := by
  rw [out0_13_eq, pay1_apply]
  simp only [pay13_apply, pay4_apply, pay5_apply, pay6_apply, pay7_apply, pay8_apply, pay9_apply, pay10_apply, pay11_apply,
    pay12_apply, pay14_apply]
  rfl

end Cert.KernelIdeal.Payload

end
-- ==== Proof.KernelValue.lean ====
/-
  The kernel's result array as one function of the program's arguments.

  The grid is 8 x 8; point (gi, gj) computes the [128, 128, 128] block of the [1024, 1024, 128] output at rows
  gi * 128 .., columns gj * 128 .., all channels, from the row block gi of the five column arrays, the column block
  gj of the five row arrays, and the whole table and weight rows. Entry (p, q, ch) of that block is the scalar
  formula `Spec.kernelVal` of the ids and mask values of tokens gi * 128 + p and gj * 128 + q and of channel ch's
  weights, so the blocks are the restrictions of ONE function `G` of the argument arrays, and since the 64 blocks
  tile the output array it ends holding `G`. The program then views the array as [1, 1024, 1024, 128].
-/
import proofs.«411382_j7619271983169_3_alg».proof.Proof.Gen.KernelIdeal.Frame
import proofs.«411382_j7619271983169_3_alg».proof.Proof.Spec
import proofs.«411382_j7619271983169_3_alg».proof.Proof.HostPrefix
import proofs.«411382_j7619271983169_3_alg».proof.Proof.KernelPayload
import Idealize.ShloMosaic.Lib.ValueIdx
import Idealize.ShloMosaic.Lib.Pipeline.Value
import Idealize.ShloMosaic.Lib.StableHlo.Run

set_option maxRecDepth 16384

noncomputable section

namespace Cert.KernelIdeal.KValue

open Cert.KernelIdeal Cert.KernelIdeal.Gen Idealize.ShloMosaic Idealize.ShloMosaic.ValueIdx Idealize.ShloMosaic.TcCoe
  Idealize.SL.Sem Idealize.ShloMosaic.StableHlo
open Idealize.ShloMosaic.Pipeline (Dat)

/-- The output array [1024, 1024, 128] as a function of the arguments: entry (i, j, ch) is the one-hot contraction
    form of the pair (i, j) at channel ch. -/
def G (a0 a1 a2 a3 : S1x1024.Idx → BitVec 32) (a4 : S1x1024.Idx → EReal) (a5 : S128x139.Idx → EReal) :
    S1024x1024x128.Idx → EReal := fun y =>
  Cert.Spec.kernelVal
    (a0 (ix2 0 ⟨(y 0).val, (y 0).isLt⟩)) (a0 (ix2 0 ⟨(y 1).val, (y 1).isLt⟩))
    (a1 (ix2 0 ⟨(y 0).val, (y 0).isLt⟩)) (a1 (ix2 0 ⟨(y 1).val, (y 1).isLt⟩))
    (a2 (ix2 0 ⟨(y 0).val, (y 0).isLt⟩)) (a2 (ix2 0 ⟨(y 1).val, (y 1).isLt⟩))
    (a3 (ix2 0 ⟨(y 0).val, (y 0).isLt⟩)) (a3 (ix2 0 ⟨(y 1).val, (y 1).isLt⟩))
    (a4 (ix2 0 ⟨(y 0).val, (y 0).isLt⟩)) (a4 (ix2 0 ⟨(y 1).val, (y 1).isLt⟩))
    (fun k => a5 (ix2 ⟨(y 2).val, (y 2).isLt⟩ ⟨k.val, by omega⟩))
    (a5 (ix2 ⟨(y 2).val, (y 2).isLt⟩ ⟨135, by decide⟩)) (a5 (ix2 ⟨(y 2).val, (y 2).isLt⟩ ⟨138, by decide⟩))

/-- A block of the body's result is a block of `G`: if the loaded blocks are rows gi * 128 .. of the column
    arrays, columns gj * 128 .. of the row arrays, and the whole table and weight rows, then entry y of what the
    body stores is `G` at (gi * 128 + y 0, gj * 128 + y 1, y 2). -/
theorem out_eq_G (a0 a1 a2 a3 : S1x1024.Idx → BitVec 32) (a4 : S1x1024.Idx → EReal) (a5 : S128x139.Idx → EReal)
    (x0 : Vec Ideal S128x1 .i32) (x1 : Vec Ideal S1x128 .i32) (x2 : Vec Ideal S128x1 .i32) (x3 : Vec Ideal S1x128 .i32)
    (x4 : Vec Ideal S128x1 .i32) (x5 : Vec Ideal S1x128 .i32) (x6 : Vec Ideal S128x1 .i32) (x7 : Vec Ideal S1x128 .i32)
    (x8 : Vec Ideal S128x1 .f32) (x9 : Vec Ideal S1x128 .f32) (x10 : Vec Ideal S133x128 .bf16) (x11 x12 : Vec Ideal S1x128 .f32)
    (gi gj : Nat) (hgi : gi ≤ 7) (hgj : gj ≤ 7)
    (h0 : ∀ p : Fin 128, x0 (ix2 p 0) = a0 (ix2 0 ⟨gi * 128 + p.val, by omega⟩))
    (h1 : ∀ q : Fin 128, x1 (ix2 0 q) = a0 (ix2 0 ⟨gj * 128 + q.val, by omega⟩))
    (h2 : ∀ p : Fin 128, x2 (ix2 p 0) = a1 (ix2 0 ⟨gi * 128 + p.val, by omega⟩))
    (h3 : ∀ q : Fin 128, x3 (ix2 0 q) = a1 (ix2 0 ⟨gj * 128 + q.val, by omega⟩))
    (h4 : ∀ p : Fin 128, x4 (ix2 p 0) = a2 (ix2 0 ⟨gi * 128 + p.val, by omega⟩))
    (h5 : ∀ q : Fin 128, x5 (ix2 0 q) = a2 (ix2 0 ⟨gj * 128 + q.val, by omega⟩))
    (h6 : ∀ p : Fin 128, x6 (ix2 p 0) = a3 (ix2 0 ⟨gi * 128 + p.val, by omega⟩))
    (h7 : ∀ q : Fin 128, x7 (ix2 0 q) = a3 (ix2 0 ⟨gj * 128 + q.val, by omega⟩))
    (h8 : ∀ p : Fin 128, x8 (ix2 p 0) = a4 (ix2 0 ⟨gi * 128 + p.val, by omega⟩))
    (h9 : ∀ q : Fin 128, x9 (ix2 0 q) = a4 (ix2 0 ⟨gj * 128 + q.val, by omega⟩))
    (h10 : ∀ (k : Fin 133) (ch : Fin 128), x10 (ix2 k ch) = a5 (ix2 ch ⟨k.val, by omega⟩))
    (h11 : ∀ ch : Fin 128, x11 (ix2 0 ch) = a5 (ix2 ch ⟨135, by decide⟩))
    (h12 : ∀ ch : Fin 128, x12 (ix2 0 ch) = a5 (ix2 ch ⟨138, by decide⟩))
    (p q ch : Fin 128) :
    out0_13 (F := Ideal) x0 x1 x2 x3 x4 x5 x6 x7 x8 x9 x10 x11 x12 (ix3 p q ch)
      = G a0 a1 a2 a3 a4 a5 (ix3 ⟨gi * 128 + p.val, by omega⟩ ⟨gj * 128 + q.val, by omega⟩ ch) := by
  rw [Cert.KernelIdeal.Payload.out0_13_apply]
  unfold G
  rw [h0 p, h1 q, h2 p, h3 q, h4 p, h5 q, h6 p, h7 q, h8 p, h9 q, h11 ch, h12 ch]
  have e : (fun k : Fin 133 => x10 (ix2 k ch)) = fun k => a5 (ix2 ch ⟨k.val, by omega⟩) := funext fun k => h10 k ch
  rw [e]

variable (m : (ℓ : Loc nD τ sig) → Buf (Elt Ideal) ℓ) (ρ : Dev nD → PrngReg)

/-- `G` of the program's arguments as launched. -/
abbrev Gm (c : Dev nD) : S1024x1024x128.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The printed index maps over the grid: a column array's block follows the output block's row index, a row
    array's block its column index, the table and weight rows stay at block (0, 0); the output's row and column
    block indices are below 8 and its channel block index is 0. -/
theorem idx_facts : ∀ t : Fin cfg0.N,
    (win0_0.index t (0 : Fin 2) = win0_13.index t (0 : Fin 3) ∧ win0_0.index t (1 : Fin 2) = 0)
    ∧ (win0_1.index t (0 : Fin 2) = 0 ∧ win0_1.index t (1 : Fin 2) = win0_13.index t (1 : Fin 3))
    ∧ (win0_2.index t (0 : Fin 2) = win0_13.index t (0 : Fin 3) ∧ win0_2.index t (1 : Fin 2) = 0)
    ∧ (win0_3.index t (0 : Fin 2) = 0 ∧ win0_3.index t (1 : Fin 2) = win0_13.index t (1 : Fin 3))
    ∧ (win0_4.index t (0 : Fin 2) = win0_13.index t (0 : Fin 3) ∧ win0_4.index t (1 : Fin 2) = 0)
    ∧ (win0_5.index t (0 : Fin 2) = 0 ∧ win0_5.index t (1 : Fin 2) = win0_13.index t (1 : Fin 3))
    ∧ (win0_6.index t (0 : Fin 2) = win0_13.index t (0 : Fin 3) ∧ win0_6.index t (1 : Fin 2) = 0)
    ∧ (win0_7.index t (0 : Fin 2) = 0 ∧ win0_7.index t (1 : Fin 2) = win0_13.index t (1 : Fin 3))
    ∧ (win0_8.index t (0 : Fin 2) = win0_13.index t (0 : Fin 3) ∧ win0_8.index t (1 : Fin 2) = 0)
    ∧ (win0_9.index t (0 : Fin 2) = 0 ∧ win0_9.index t (1 : Fin 2) = win0_13.index t (1 : Fin 3))
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ win0_13.index t (0 : Fin 3) ≤ 7 ∧ win0_13.index t (1 : Fin 3) ≤ 7 ∧ win0_13.index t (2 : Fin 3) = 0 :=
  (by decide +kernel : ∀ t : Fin grid0.N, _)

/-- Every (row block, column block) pair is some grid point's. -/
theorem idx_onto : ∀ (q0 q1 : Fin 8), ∃ t : Fin cfg0.N, win0_13.index t = ![q0.val, q1.val, 0] :=
  (by decide +kernel : ∀ (q0 q1 : Fin 8), ∃ t : Fin grid0.N, win0_13.index t = ![q0.val, q1.val, 0])

/-- Window 0 (the res column array): entry (p, 0) of its block at a point whose row block index is gi is the
    argument's entry (0, gi * 128 + p). -/
theorem blk_0 (c : Dev nD) (t : Fin cfg0.N) (gi : Nat) (hgi : gi ≤ 7) (e0 : win0_0.index t (0 : Fin 2) = gi)
    (e1 : win0_0.index t (1 : Fin 2) = 0) (p : Fin 128) :
    iblk m c 0 t (ix2 p 0) = (m ((c : Thread nD τ).loc main_arg0) : S1x1024.Idx → BitVec 32) (ix2 0 ⟨gi * 128 + p.val, by omega⟩) := by
  show (V m c main_v5 : S1024x1.Idx → BitVec 32) (((cfg0.win 0).blk t).view.emb (ix2 p 0)) = _
  have he : ((cfg0.win 0).blk t).view.emb (ix2 p 0) = ix2 (⟨gi * 128 + p.val, by omega⟩ : Fin 1024) (0 : Fin 1) := by
    funext a; apply Fin.ext
    match a with
    | ⟨0, _⟩ => show win0_0.index t (0 : Fin 2) * 128 + 1 * p.val = gi * 128 + p.val; omega
    | ⟨1, _⟩ => show win0_0.index t (1 : Fin 2) * 1 + 1 * 0 = 0; omega
  rw [he]; exact HostPrefix.V_res_col m c _

/-- Window 2 (the tok column array): entry (p, 0) of its block at a point whose row block index is gi is the
    argument's entry (0, gi * 128 + p). -/
theorem blk_2 (c : Dev nD) (t : Fin cfg0.N) (gi : Nat) (hgi : gi ≤ 7) (e0 : win0_2.index t (0 : Fin 2) = gi)
    (e1 : win0_2.index t (1 : Fin 2) = 0) (p : Fin 128) :
    iblk m c 2 t (ix2 p 0) = (m ((c : Thread nD τ).loc main_arg1) : S1x1024.Idx → BitVec 32) (ix2 0 ⟨gi * 128 + p.val, by omega⟩) := by
  show (V m c main_v7 : S1024x1.Idx → BitVec 32) (((cfg0.win 2).blk t).view.emb (ix2 p 0)) = _
  have he : ((cfg0.win 2).blk t).view.emb (ix2 p 0) = ix2 (⟨gi * 128 + p.val, by omega⟩ : Fin 1024) (0 : Fin 1) := by
    funext a; apply Fin.ext
    match a with
    | ⟨0, _⟩ => show win0_2.index t (0 : Fin 2) * 128 + 1 * p.val = gi * 128 + p.val; omega
    | ⟨1, _⟩ => show win0_2.index t (1 : Fin 2) * 1 + 1 * 0 = 0; omega
  rw [he]; exact HostPrefix.V_tok_col m c _

/-- Window 4 (the asym column array): entry (p, 0) of its block at a point whose row block index is gi is the
    argument's entry (0, gi * 128 + p). -/
theorem blk_4 (c : Dev nD) (t : Fin cfg0.N) (gi : Nat) (hgi : gi ≤ 7) (e0 : win0_4.index t (0 : Fin 2) = gi)
    (e1 : win0_4.index t (1 : Fin 2) = 0) (p : Fin 128) :
    iblk m c 4 t (ix2 p 0) = (m ((c : Thread nD τ).loc main_arg2) : S1x1024.Idx → BitVec 32) (ix2 0 ⟨gi * 128 + p.val, by omega⟩) := by
  show (V m c main_v9 : S1024x1.Idx → BitVec 32) (((cfg0.win 4).blk t).view.emb (ix2 p 0)) = _
  have he : ((cfg0.win 4).blk t).view.emb (ix2 p 0) = ix2 (⟨gi * 128 + p.val, by omega⟩ : Fin 1024) (0 : Fin 1) := by
    funext a; apply Fin.ext
    match a with
    | ⟨0, _⟩ => show win0_4.index t (0 : Fin 2) * 128 + 1 * p.val = gi * 128 + p.val; omega
    | ⟨1, _⟩ => show win0_4.index t (1 : Fin 2) * 1 + 1 * 0 = 0; omega
  rw [he]; exact HostPrefix.V_asym_col m c _

/-- Window 6 (the ent column array): entry (p, 0) of its block at a point whose row block index is gi is the
    argument's entry (0, gi * 128 + p). -/
theorem blk_6 (c : Dev nD) (t : Fin cfg0.N) (gi : Nat) (hgi : gi ≤ 7) (e0 : win0_6.index t (0 : Fin 2) = gi)
    (e1 : win0_6.index t (1 : Fin 2) = 0) (p : Fin 128) :
    iblk m c 6 t (ix2 p 0) = (m ((c : Thread nD τ).loc main_arg3) : S1x1024.Idx → BitVec 32) (ix2 0 ⟨gi * 128 + p.val, by omega⟩) := by
  show (V m c main_v11 : S1024x1.Idx → BitVec 32) (((cfg0.win 6).blk t).view.emb (ix2 p 0)) = _
  have he : ((cfg0.win 6).blk t).view.emb (ix2 p 0) = ix2 (⟨gi * 128 + p.val, by omega⟩ : Fin 1024) (0 : Fin 1) := by
    funext a; apply Fin.ext
    match a with
    | ⟨0, _⟩ => show win0_6.index t (0 : Fin 2) * 128 + 1 * p.val = gi * 128 + p.val; omega
    | ⟨1, _⟩ => show win0_6.index t (1 : Fin 2) * 1 + 1 * 0 = 0; omega
  rw [he]; exact HostPrefix.V_ent_col m c _

/-- Window 8 (the mask column array): entry (p, 0) of its block at a point whose row block index is gi is the
    argument's entry (0, gi * 128 + p). -/
theorem blk_8 (c : Dev nD) (t : Fin cfg0.N) (gi : Nat) (hgi : gi ≤ 7) (e0 : win0_8.index t (0 : Fin 2) = gi)
    (e1 : win0_8.index t (1 : Fin 2) = 0) (p : Fin 128) :
    iblk m c 8 t (ix2 p 0) = (m ((c : Thread nD τ).loc main_arg4) : S1x1024.Idx → EReal) (ix2 0 ⟨gi * 128 + p.val, by omega⟩) := by
  show (V m c main_v13 : S1024x1.Idx → EReal) (((cfg0.win 8).blk t).view.emb (ix2 p 0)) = _
  have he : ((cfg0.win 8).blk t).view.emb (ix2 p 0) = ix2 (⟨gi * 128 + p.val, by omega⟩ : Fin 1024) (0 : Fin 1) := by
    funext a; apply Fin.ext
    match a with
    | ⟨0, _⟩ => show win0_8.index t (0 : Fin 2) * 128 + 1 * p.val = gi * 128 + p.val; omega
    | ⟨1, _⟩ => show win0_8.index t (1 : Fin 2) * 1 + 1 * 0 = 0; omega
  rw [he]; exact HostPrefix.V_mask_col m c _

/-- Window 1 (the res row array): entry (0, q) of its block at a point whose column block index is gj is the
    argument's entry (0, gj * 128 + q). -/
theorem blk_1 (c : Dev nD) (t : Fin cfg0.N) (gj : Nat) (hgj : gj ≤ 7) (e0 : win0_1.index t (0 : Fin 2) = 0)
    (e1 : win0_1.index t (1 : Fin 2) = gj) (q : Fin 128) :
    iblk m c 1 t (ix2 0 q) = (m ((c : Thread nD τ).loc main_arg0) : S1x1024.Idx → BitVec 32) (ix2 0 ⟨gj * 128 + q.val, by omega⟩) := by
  show (V m c main_v6 : S1x1024.Idx → BitVec 32) (((cfg0.win 1).blk t).view.emb (ix2 0 q)) = _
  have he : ((cfg0.win 1).blk t).view.emb (ix2 0 q) = ix2 (0 : Fin 1) (⟨gj * 128 + q.val, by omega⟩ : Fin 1024) := by
    funext a; apply Fin.ext
    match a with
    | ⟨0, _⟩ => show win0_1.index t (0 : Fin 2) * 1 + 1 * 0 = 0; omega
    | ⟨1, _⟩ => show win0_1.index t (1 : Fin 2) * 128 + 1 * q.val = gj * 128 + q.val; omega
  rw [he]; exact HostPrefix.V_res_row m c _

/-- Window 3 (the tok row array): entry (0, q) of its block at a point whose column block index is gj is the
    argument's entry (0, gj * 128 + q). -/
theorem blk_3 (c : Dev nD) (t : Fin cfg0.N) (gj : Nat) (hgj : gj ≤ 7) (e0 : win0_3.index t (0 : Fin 2) = 0)
    (e1 : win0_3.index t (1 : Fin 2) = gj) (q : Fin 128) :
    iblk m c 3 t (ix2 0 q) = (m ((c : Thread nD τ).loc main_arg1) : S1x1024.Idx → BitVec 32) (ix2 0 ⟨gj * 128 + q.val, by omega⟩) := by
  show (V m c main_v8 : S1x1024.Idx → BitVec 32) (((cfg0.win 3).blk t).view.emb (ix2 0 q)) = _
  have he : ((cfg0.win 3).blk t).view.emb (ix2 0 q) = ix2 (0 : Fin 1) (⟨gj * 128 + q.val, by omega⟩ : Fin 1024) := by
    funext a; apply Fin.ext
    match a with
    | ⟨0, _⟩ => show win0_3.index t (0 : Fin 2) * 1 + 1 * 0 = 0; omega
    | ⟨1, _⟩ => show win0_3.index t (1 : Fin 2) * 128 + 1 * q.val = gj * 128 + q.val; omega
  rw [he]; exact HostPrefix.V_tok_row m c _

/-- Window 5 (the asym row array): entry (0, q) of its block at a point whose column block index is gj is the
    argument's entry (0, gj * 128 + q). -/
theorem blk_5 (c : Dev nD) (t : Fin cfg0.N) (gj : Nat) (hgj : gj ≤ 7) (e0 : win0_5.index t (0 : Fin 2) = 0)
    (e1 : win0_5.index t (1 : Fin 2) = gj) (q : Fin 128) :
    iblk m c 5 t (ix2 0 q) = (m ((c : Thread nD τ).loc main_arg2) : S1x1024.Idx → BitVec 32) (ix2 0 ⟨gj * 128 + q.val, by omega⟩) := by
  show (V m c main_v10 : S1x1024.Idx → BitVec 32) (((cfg0.win 5).blk t).view.emb (ix2 0 q)) = _
  have he : ((cfg0.win 5).blk t).view.emb (ix2 0 q) = ix2 (0 : Fin 1) (⟨gj * 128 + q.val, by omega⟩ : Fin 1024) := by
    funext a; apply Fin.ext
    match a with
    | ⟨0, _⟩ => show win0_5.index t (0 : Fin 2) * 1 + 1 * 0 = 0; omega
    | ⟨1, _⟩ => show win0_5.index t (1 : Fin 2) * 128 + 1 * q.val = gj * 128 + q.val; omega
  rw [he]; exact HostPrefix.V_asym_row m c _

/-- Window 7 (the ent row array): entry (0, q) of its block at a point whose column block index is gj is the
    argument's entry (0, gj * 128 + q). -/
theorem blk_7 (c : Dev nD) (t : Fin cfg0.N) (gj : Nat) (hgj : gj ≤ 7) (e0 : win0_7.index t (0 : Fin 2) = 0)
    (e1 : win0_7.index t (1 : Fin 2) = gj) (q : Fin 128) :
    iblk m c 7 t (ix2 0 q) = (m ((c : Thread nD τ).loc main_arg3) : S1x1024.Idx → BitVec 32) (ix2 0 ⟨gj * 128 + q.val, by omega⟩) := by
  show (V m c main_v12 : S1x1024.Idx → BitVec 32) (((cfg0.win 7).blk t).view.emb (ix2 0 q)) = _
  have he : ((cfg0.win 7).blk t).view.emb (ix2 0 q) = ix2 (0 : Fin 1) (⟨gj * 128 + q.val, by omega⟩ : Fin 1024) := by
    funext a; apply Fin.ext
    match a with
    | ⟨0, _⟩ => show win0_7.index t (0 : Fin 2) * 1 + 1 * 0 = 0; omega
    | ⟨1, _⟩ => show win0_7.index t (1 : Fin 2) * 128 + 1 * q.val = gj * 128 + q.val; omega
  rw [he]; exact HostPrefix.V_ent_row m c _

/-- Window 9 (the mask row array): entry (0, q) of its block at a point whose column block index is gj is the
    argument's entry (0, gj * 128 + q). -/
theorem blk_9 (c : Dev nD) (t : Fin cfg0.N) (gj : Nat) (hgj : gj ≤ 7) (e0 : win0_9.index t (0 : Fin 2) = 0)
    (e1 : win0_9.index t (1 : Fin 2) = gj) (q : Fin 128) :
    iblk m c 9 t (ix2 0 q) = (m ((c : Thread nD τ).loc main_arg4) : S1x1024.Idx → EReal) (ix2 0 ⟨gj * 128 + q.val, by omega⟩) := by
  show (V m c main_v14 : S1x1024.Idx → EReal) (((cfg0.win 9).blk t).view.emb (ix2 0 q)) = _
  have he : ((cfg0.win 9).blk t).view.emb (ix2 0 q) = ix2 (0 : Fin 1) (⟨gj * 128 + q.val, by omega⟩ : Fin 1024) := by
    funext a; apply Fin.ext
    match a with
    | ⟨0, _⟩ => show win0_9.index t (0 : Fin 2) * 1 + 1 * 0 = 0; omega
    | ⟨1, _⟩ => show win0_9.index t (1 : Fin 2) * 128 + 1 * q.val = gj * 128 + q.val; omega
  rw [he]; exact HostPrefix.V_mask_row m c _

/-- Window 10 (the table): its one block is the whole array; entry (k, ch) is the weight matrix's entry (ch, k). -/
theorem blk_10 (c : Dev nD) (t : Fin cfg0.N) (e0 : win0_10.index t (0 : Fin 2) = 0) (e1 : win0_10.index t (1 : Fin 2) = 0)
    (k : Fin 133) (ch : Fin 128) :
    iblk m c 10 t (ix2 k ch) = (m ((c : Thread nD τ).loc main_arg5) : S128x139.Idx → EReal) (ix2 ch ⟨k.val, by omega⟩) := by
  show (V m c main_v17 : S133x128.Idx → EReal) (((cfg0.win 10).blk t).view.emb (ix2 k ch)) = _
  have he : ((cfg0.win 10).blk t).view.emb (ix2 k ch) = ix2 k ch := by
    funext a; apply Fin.ext
    match a with
    | ⟨0, _⟩ => show win0_10.index t (0 : Fin 2) * 133 + 1 * k.val = k.val; omega
    | ⟨1, _⟩ => show win0_10.index t (1 : Fin 2) * 128 + 1 * ch.val = ch.val; omega
  rw [he]; exact HostPrefix.V_table m c k ch

/-- Window 11 (the same-chain weight row): entry (0, ch) is the weight matrix's entry (ch, 135). -/
theorem blk_11 (c : Dev nD) (t : Fin cfg0.N) (e0 : win0_11.index t (0 : Fin 2) = 0) (e1 : win0_11.index t (1 : Fin 2) = 0)
    (ch : Fin 128) :
    iblk m c 11 t (ix2 0 ch) = (m ((c : Thread nD τ).loc main_arg5) : S128x139.Idx → EReal) (ix2 ch ⟨135, by decide⟩) := by
  show (V m c main_v18 : S1x128.Idx → EReal) (((cfg0.win 11).blk t).view.emb (ix2 0 ch)) = _
  have he : ((cfg0.win 11).blk t).view.emb (ix2 0 ch) = ix2 (0 : Fin 1) ch := by
    funext a; apply Fin.ext
    match a with
    | ⟨0, _⟩ => show win0_11.index t (0 : Fin 2) * 1 + 1 * 0 = 0; omega
    | ⟨1, _⟩ => show win0_11.index t (1 : Fin 2) * 128 + 1 * ch.val = ch.val; omega
  rw [he]; exact HostPrefix.V_wSame m c ch

/-- Window 12 (the other-chain weight row): entry (0, ch) is the weight matrix's entry (ch, 138). -/
theorem blk_12 (c : Dev nD) (t : Fin cfg0.N) (e0 : win0_12.index t (0 : Fin 2) = 0) (e1 : win0_12.index t (1 : Fin 2) = 0)
    (ch : Fin 128) :
    iblk m c 12 t (ix2 0 ch) = (m ((c : Thread nD τ).loc main_arg5) : S128x139.Idx → EReal) (ix2 ch ⟨138, by decide⟩) := by
  show (V m c main_v19 : S1x128.Idx → EReal) (((cfg0.win 12).blk t).view.emb (ix2 0 ch)) = _
  have he : ((cfg0.win 12).blk t).view.emb (ix2 0 ch) = ix2 (0 : Fin 1) ch := by
    funext a; apply Fin.ext
    match a with
    | ⟨0, _⟩ => show win0_12.index t (0 : Fin 2) * 1 + 1 * 0 = 0; omega
    | ⟨1, _⟩ => show win0_12.index t (1 : Fin 2) * 128 + 1 * ch.val = ch.val; omega
  rw [he]; exact HostPrefix.V_wDiff m c ch

/-- WHAT A POINT WRITES BACK is its block of `G` of the arguments. -/
theorem flushed_eq (c : Dev nD) (t : Fin cfg0.N) :
    (dats m 0 c).flushed 13 t = ((cfg0.win 13).blk t).view.read (Elt Ideal) (Gm m c) := by
  show (cfg0.win 13).cut (grid0.coords t) ((dats m 0 c).after 13 t) = _
  rw [after0_13]
  obtain ⟨⟨e00, e01⟩, ⟨e10, e11⟩, ⟨e20, e21⟩, ⟨e30, e31⟩, ⟨e40, e41⟩, ⟨e50, e51⟩, ⟨e60, e61⟩, ⟨e70, e71⟩, ⟨e80, e81⟩,
    ⟨e90, e91⟩, ⟨ea0, ea1⟩, ⟨eb0, eb1⟩, ⟨ec0, ec1⟩, hb0, hb1, hb2⟩ := idx_facts t
  funext y
  obtain ⟨p, q, ch, rfl⟩ : ∃ (p q ch : Fin 128), y = ix3 p q ch := ⟨y 0, y 1, y 2, eq_ix3 y⟩
  show out0_13 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (ix3 p q ch)
    = Gm m c (((cfg0.win 13).blk t).view.emb (ix3 p q ch))
  have he : ((cfg0.win 13).blk t).view.emb (ix3 p q ch)
      = ix3 (⟨win0_13.index t (0 : Fin 3) * 128 + p.val, by omega⟩ : Fin 1024)
          (⟨win0_13.index t (1 : Fin 3) * 128 + q.val, by omega⟩ : Fin 1024) ch := by
    funext a; apply Fin.ext
    match a with
    | ⟨0, _⟩ => show win0_13.index t (0 : Fin 3) * 128 + 1 * p.val = win0_13.index t (0 : Fin 3) * 128 + p.val; omega
    | ⟨1, _⟩ => show win0_13.index t (1 : Fin 3) * 128 + 1 * q.val = win0_13.index t (1 : Fin 3) * 128 + q.val; omega
    | ⟨2, _⟩ => show win0_13.index t (2 : Fin 3) * 128 + 1 * ch.val = ch.val; omega
  rw [he]
  exact out_eq_G _ _ _ _ _ _ _ _ _ _ _ _ _ _ _ _ _ _ _ (win0_13.index t (0 : Fin 3)) (win0_13.index t (1 : Fin 3)) hb0 hb1
    (blk_0 m c t _ hb0 e00 e01) (blk_1 m c t _ hb1 e10 e11) (blk_2 m c t _ hb0 e20 e21) (blk_3 m c t _ hb1 e30 e31)
    (blk_4 m c t _ hb0 e40 e41) (blk_5 m c t _ hb1 e50 e51) (blk_6 m c t _ hb0 e60 e61) (blk_7 m c t _ hb1 e70 e71)
    (blk_8 m c t _ hb0 e80 e81) (blk_9 m c t _ hb1 e90 e91) (blk_10 m c t ea0 ea1) (blk_11 m c t eb0 eb1) (blk_12 m c t ec0 ec1)
    p q ch

/-- An index of the output array is in a point's block iff each coordinate is in the block's range on its axis. -/
theorem mem_blk (t : Fin cfg0.N) (i : S1024x1024x128.Idx) :
    i ∈ ((cfg0.win 13).blk t).view.set ↔ ∀ a : Fin 3, win0_13.index t a * S128x128x128.size a ≤ (i a).val
      ∧ (i a).val < win0_13.index t a * S128x128x128.size a + S128x128x128.size a := by
  show i ∈ ((View.whole main_v20).slice (win0_13.rect t)).set ↔ _
  rw [View.set_slice_whole, Rect.mem_set_unit]
  exact Iff.rfl

/-- The 64 blocks tile the output array: index (i, j, ch) is in the block of the point with row block i / 128 and
    column block j / 128. -/
theorem cover (i : S1024x1024x128.Idx) :
    ∃ t : Fin cfg0.N, (cfg0.win 13).flush t = true ∧ i ∈ ((cfg0.win 13).blk t).view.set := by
  have hi0 : (i 0).val < 1024 := (i 0).isLt
  have hi1 : (i 1).val < 1024 := (i 1).isLt
  have hi2 : (i 2).val < 128 := (i 2).isLt
  obtain ⟨t, ht⟩ := idx_onto ⟨(i 0).val / 128, by omega⟩ ⟨(i 1).val / 128, by omega⟩
  have q0 : win0_13.index t (0 : Fin 3) = (i 0).val / 128 := congrFun ht 0
  have q1 : win0_13.index t (1 : Fin 3) = (i 1).val / 128 := congrFun ht 1
  have q2 : win0_13.index t (2 : Fin 3) = 0 := congrFun ht 2
  refine ⟨t, flush0_13 t, ?_⟩
  rw [mem_blk]
  intro a
  match a with
  | ⟨0, _⟩ => show win0_13.index t (0 : Fin 3) * 128 ≤ (i 0).val ∧ (i 0).val < win0_13.index t (0 : Fin 3) * 128 + 128; omega
  | ⟨1, _⟩ => show win0_13.index t (1 : Fin 3) * 128 ≤ (i 1).val ∧ (i 1).val < win0_13.index t (1 : Fin 3) * 128 + 128; omega
  | ⟨2, _⟩ => show win0_13.index t (2 : Fin 3) * 128 ≤ (i 2).val ∧ (i 2).val < win0_13.index t (2 : Fin 3) * 128 + 128; omega

/-- THE OUTPUT ARRAY after the region is `G` of the arguments. -/
theorem final (c : Dev nD) : (dats m 0 c).arrAt 13 cfg0.N = Gm m c :=
  (dats m 0 c).arrAt_eq_of_cover 13 (Gm m c) (fun t _ => flushed_eq m c t) cover

/-- The program's result: the output array viewed as [1, 1024, 1024, 128]. -/
theorem tail_eq (c : Dev nD) :
    Pipeline.afterTail₀ cfgs (dats m) 0 (V0 m) [hostOps1] c main_v21
      = shapeCast S1x1024x1024x128 (Gm m c) shapeCasts_S1024x1024x128_S1x1024x1024x128 := by
  unfold Pipeline.afterTail₀
  show StableHlo.after hostOps1 _ (Proc.devRef .tc main_v21) = _
  after_results
  all_goals
    rw [(Pipeline.withArrays_arr spec0 launch0.win.arr_inj c _ _ 13).trans (final m c)]
    rfl

/-- THE RUN, READ: every weakly fair execution terminates with the result buffer at `G` of the arguments, viewed as
    [1, 1024, 1024, 128], and the arguments unchanged. -/
theorem run : θ_run defs (onTc (τ := τ) (main (F := Ideal))) ⟨m, fun _ => 0, ρ⟩ fun r => ∀ c : Dev nD,
      r.2.mem ((c.tc : Thread nD τ).loc main_v21) = shapeCast S1x1024x1024x128 (Gm m c) shapeCasts_S1024x1024x128_S1x1024x1024x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v21 (Pipeline.mem_restRefs_of main_v21 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KValue

end
-- ==== Proof.LibGatherRows.lean ====
/-
  A row look-up read at an index.

  `T[idx]` of a table `T : [N, C]` at an integer array `idx : [D, A, B]` is a gather with offset_dims `[3]`,
  collapsed_slice_dims `[0]`, start_index_map `[0]`, slice_sizes `[1, C]` and index_vector_dim 3 over the indices
  as `[D, A, B, 1]`: result element `(p, i, j, c)` is entry `c` of the table's row `idx[p, i, j, 0]`, the row number
  read as a signed integer and clamped into `[0, N - 1]`.
-/
import Idealize.ShloMosaic.Lib.ValueIdx

noncomputable section

namespace Cert.Lib

open Idealize.ShloMosaic Idealize.ShloMosaic.ValueIdx

/-! ## A row look-up: `stablehlo.gather` of a rank-2 table at a rank-4 array of start indices

What `T[idx]` of a table `T : [N, C]` at an integer array `idx : [D, A, B]` lowers to: a gather with offset_dims `[3]`,
collapsed_slice_dims `[0]`, start_index_map `[0]`, slice_sizes `[1, C]` and index_vector_dim 3 over the indices as
`[D, A, B, 1]`. Result element `(p, i, j, c)` is entry `c` of the table's row `idx[p, i, j, 0]`, the row number read as a
signed integer and clamped into `[0, N − 1]`. -/

section Rows
variable {α : Type}

/-- Those dimension numbers for a table `[N, C]`, start indices `[D, A, B, 1]` and result `[D, A, B, C]`. -/
abbrev rowsDims (N D A B C : Nat)
    (wf : GatherDims.WF ⟨2, ![N, C]⟩ ⟨4, ![D, A, B, 1]⟩ ⟨4, ![D, A, B, C]⟩ [3] [0] [] [0] [] 3 ![1, C]) :
    GatherDims ⟨2, ![N, C]⟩ ⟨4, ![D, A, B, 1]⟩ ⟨4, ![D, A, B, C]⟩ where
  offsetDims := [3]
  collapsedSliceDims := [0]
  operandBatchingDims := []
  startIndicesBatchingDims := []
  startIndexMap := [0]
  indexVectorDim := 3
  sliceSizes := ![1, C]
  wf := wf

/-- The row look-up read at `(p, i, j, c)`: on the table's axis 0 (collapsed, named by the start index map) the
    coordinate is the clamped start index alone; on axis 1 (the one offset axis, not in the start index map) it is the
    result's last coordinate alone. -/
theorem gather_rows_apply {N D A B C w : Nat} (hN : 0 < N)
    (wf : GatherDims.WF ⟨2, ![N, C]⟩ ⟨4, ![D, A, B, 1]⟩ ⟨4, ![D, A, B, C]⟩ [3] [0] [] [0] [] 3 ![1, C])
    (x : (⟨2, ![N, C]⟩ : Shape).Idx → α) (idx : IVec ⟨4, ![D, A, B, 1]⟩ w)
    (p : Fin D) (i : Fin A) (j : Fin B) (c : Fin C) :
    Host.gather (rowsDims N D A B C wf) x idx (ix4 p i j c)
      = x (ix2 ⟨min (idx (ix4 p i j 0)).toInt.toNat (N - 1), by omega⟩ c) := by
  unfold Host.gather
  congr 1
  funext a
  refine Fin.ext ?_
  match a with
  | ⟨0, _⟩ =>
    show (rowsDims N D A B C wf).start (ix4 p i j c) idx 0 + (rowsDims N D A B C wf).batchCoord (ix4 p i j c) 0
      + (rowsDims N D A B C wf).offCoord (ix4 p i j c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D A B C wf).startIndexMap from List.mem_singleton.mpr rfl)]
    have hsi : (rowsDims N D A B C wf).siIdx (ix4 p i j c) ⟨List.idxOf (0 : Fin 2) (rowsDims N D A B C wf).startIndexMap,
        List.idxOf_lt_length_iff.2 (List.mem_singleton.mpr rfl)⟩ = ix4 p i j 0 := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show (rowsDims N D A B C wf).start (ix4 p i j c) idx 1 + (rowsDims N D A B C wf).batchCoord (ix4 p i j c) 1
      + (rowsDims N D A B C wf).offCoord (ix4 p i j c) 1 = c.val
    rw [GatherDims.batchCoord_eq_zero _ _ _ List.not_mem_nil]
    unfold GatherDims.start
    rw [dif_neg (show ¬ (1 : Fin 2) ∈ (rowsDims N D A B C wf).startIndexMap from
      fun h => Nat.one_ne_zero (congrArg Fin.val (List.mem_singleton.mp h)))]
    unfold GatherDims.offCoord
    rw [dif_pos (show (1 : Fin 2) ∈ (rowsDims N D A B C wf).sKept from
      (GatherDims.mem_sKept _ _).mpr ⟨fun h => Nat.one_ne_zero (congrArg Fin.val (List.mem_singleton.mp h)), List.not_mem_nil⟩)]
    simp only [Nat.zero_add, Nat.add_zero]
    rfl

end Rows

end Cert.Lib

end
-- ==== Proof.RefValue.lean ====
/-
  The reference's result, read index by index.

  Entry (0, i, j, c) of the reference's result is the four-look-up form `Cert.Spec.refVal`: the three class words of the
  pair (i, j) — residue offset, token offset, chain offset, each clipped inside a chain and set to the extra class
  across chains — select one row each of three row ranges of the transposed weight matrix, the same-entity bit scales
  row 132, and the sum is multiplied by the product of the two tokens' mask values.

  The one shape operation the generated reading does not read is a row look-up (`Cert.Lib.gather_rows_apply`). Here: the
  class words, the start-index words, the tables, the three look-ups, the entity bit and the pair mask at an index;
  last the result (`val_main_v86_spec`).
-/
import proofs.«411382_j7619271983169_3_alg».proof.Proof.Gen.ReferenceIdeal.Run
import proofs.«411382_j7619271983169_3_alg».proof.Proof.Gen.ReferenceIdeal.Read
import proofs.«411382_j7619271983169_3_alg».proof.Proof.Spec
import proofs.«411382_j7619271983169_3_alg».proof.Proof.LibGatherRows
import Idealize.ShloMosaic.Lib.ValueIdx
import Idealize.ShloMosaic.Lib.Pipeline.Value

noncomputable section

namespace Cert.ReferenceIdeal.RefValue

open Cert.ReferenceIdeal Cert.ReferenceIdeal.Read Idealize.ShloMosaic Idealize.ShloMosaic.ValueIdx Cert.Lib

/-! ## The reference at an index -/

local macro "idx_two" : tactic =>
  `(tactic| (funext a; refine Fin.ext ?_; match a with | ⟨0, _⟩ => rfl | ⟨1, _⟩ => rfl))
local macro "idx_three" : tactic =>
  `(tactic| (funext a; refine Fin.ext ?_; match a with | ⟨0, _⟩ => rfl | ⟨1, _⟩ => rfl | ⟨2, _⟩ => rfl))

/-- A per-token array of 32-bit words. -/
abbrev Words := (⟨S1x1024, .i32⟩ : BufTy).Contents (Elt Ideal)
/-- The weight matrix `[128, 139]`. -/
abbrev Weights := (⟨S128x139, .f32⟩ : BufTy).Contents (Elt Ideal)

/-- The per-token mask. -/
abbrev Mask := (⟨S1x1024, .f32⟩ : BufTy).Contents (Elt Ideal)

/-! The three class words at `(0, i, j)`: row `i` and column `j` of each broadcast id array, the offset shifted and
    clipped, and the select on the equality bits. -/

theorem posClass_at (x0 x2 : Words) (i j : Fin 1024) :
    val_main_v23 (F := Ideal) x0 x2 (ix3 0 i j)
      = Cert.Spec.posClass (x0 (ix2 0 i)) (x0 (ix2 0 j)) (x2 (ix2 0 i)) (x2 (ix2 0 j)) := by
  have e1 : idx_main_v0 (idx_main_v2 (ix3 (0 : Fin 1) i j)) = ix2 0 i := by idx_two
  have e2 : idx_main_v1 (idx_main_v3 (ix3 (0 : Fin 1) i j)) = ix2 0 j := by idx_two
  have e3 : idx_main_v15 (idx_main_v17 (ix3 (0 : Fin 1) i j)) = ix2 0 j := by idx_two
  have e4 : idx_main_v16 (idx_main_v18 (ix3 (0 : Fin 1) i j)) = ix2 0 i := by idx_two
  simp only [val_main_v23_apply, val_main_v4_apply, val_main_v22_apply, val_main_call0_v4_apply, val_main_call0_v3_apply,
    val_main_c_1_apply, val_main_call0_v2_apply, val_main_call0_v1_apply, val_main_call0_v0_apply, val_main_c_0_apply,
    val_main_v21_apply, val_main_v19_apply, val_main_v17_apply, val_main_v15_apply, val_main_v18_apply, val_main_v16_apply,
    val_main_v20_apply, val_main_c_apply, val_main_call1_v1_apply, val_main_call1_v0_apply, val_main_c_2_apply,
    val_main_v2_apply, val_main_v0_apply, val_main_v3_apply, val_main_v1_apply, e1, e2, e3, e4]
  rfl

theorem tokClass_at (x0 x1 x2 : Words) (i j : Fin 1024) :
    val_main_v33 (F := Ideal) x0 x1 x2 (ix3 0 i j)
      = Cert.Spec.tokClass (x0 (ix2 0 i)) (x0 (ix2 0 j)) (x1 (ix2 0 i)) (x1 (ix2 0 j)) (x2 (ix2 0 i)) (x2 (ix2 0 j)) := by
  have e1 : idx_main_v0 (idx_main_v2 (ix3 (0 : Fin 1) i j)) = ix2 0 i := by idx_two
  have e2 : idx_main_v1 (idx_main_v3 (ix3 (0 : Fin 1) i j)) = ix2 0 j := by idx_two
  have e3 : idx_main_v5 (idx_main_v7 (ix3 (0 : Fin 1) i j)) = ix2 0 i := by idx_two
  have e4 : idx_main_v6 (idx_main_v8 (ix3 (0 : Fin 1) i j)) = ix2 0 j := by idx_two
  have e5 : idx_main_v25 (idx_main_v27 (ix3 (0 : Fin 1) i j)) = ix2 0 j := by idx_two
  have e6 : idx_main_v26 (idx_main_v28 (ix3 (0 : Fin 1) i j)) = ix2 0 i := by idx_two
  simp only [val_main_v33_apply, val_main_v24_apply, val_main_v4_apply, val_main_v9_apply, val_main_v32_apply,
    val_main_call2_v4_apply, val_main_call2_v3_apply, val_main_c_5_apply, val_main_call2_v2_apply, val_main_call2_v1_apply,
    val_main_call2_v0_apply, val_main_c_4_apply, val_main_v31_apply, val_main_v29_apply, val_main_v27_apply,
    val_main_v25_apply, val_main_v28_apply, val_main_v26_apply, val_main_v30_apply, val_main_c_3_apply,
    val_main_call3_v1_apply, val_main_call3_v0_apply, val_main_c_6_apply, val_main_v2_apply, val_main_v0_apply,
    val_main_v3_apply, val_main_v1_apply, val_main_v7_apply, val_main_v5_apply, val_main_v8_apply, val_main_v6_apply,
    e1, e2, e3, e4, e5, e6]
  rfl

theorem chainClass_at (x2 : Words) (i j : Fin 1024) :
    val_main_v42 (F := Ideal) x2 (ix3 0 i j) = Cert.Spec.chainClass (x2 (ix2 0 i)) (x2 (ix2 0 j)) := by
  have e1 : idx_main_v0 (idx_main_v2 (ix3 (0 : Fin 1) i j)) = ix2 0 i := by idx_two
  have e2 : idx_main_v1 (idx_main_v3 (ix3 (0 : Fin 1) i j)) = ix2 0 j := by idx_two
  have e3 : idx_main_v34 (idx_main_v36 (ix3 (0 : Fin 1) i j)) = ix2 0 j := by idx_two
  have e4 : idx_main_v35 (idx_main_v37 (ix3 (0 : Fin 1) i j)) = ix2 0 i := by idx_two
  simp only [val_main_v42_apply, val_main_v4_apply, val_main_v41_apply, val_main_call4_v4_apply, val_main_call4_v3_apply,
    val_main_c_9_apply, val_main_call4_v2_apply, val_main_call4_v1_apply, val_main_call4_v0_apply, val_main_c_8_apply,
    val_main_v40_apply, val_main_v38_apply, val_main_v36_apply, val_main_v34_apply, val_main_v37_apply, val_main_v35_apply,
    val_main_v39_apply, val_main_c_7_apply, val_main_call5_v1_apply, val_main_call5_v0_apply, val_main_c_10_apply,
    val_main_v2_apply, val_main_v0_apply, val_main_v3_apply, val_main_v1_apply, e1, e2, e3, e4]
  rfl

/-! The start-index words: each class word, a negative one wrapped by its table's length. -/

theorem posWord_at (x0 x2 : Words) (i j : Fin 1024) :
    val_main_v54 (F := Ideal) x0 x2 (ix4 0 i j 0)
      = Scalar.select (IntOp.cmpi .slt (Cert.Spec.posClass (x0 (ix2 0 i)) (x0 (ix2 0 j)) (x2 (ix2 0 i)) (x2 (ix2 0 j))) 0#32)
          (IntOp.addi (Cert.Spec.posClass (x0 (ix2 0 i)) (x0 (ix2 0 j)) (x2 (ix2 0 i)) (x2 (ix2 0 j))) 66#32)
          (Cert.Spec.posClass (x0 (ix2 0 i)) (x0 (ix2 0 j)) (x2 (ix2 0 i)) (x2 (ix2 0 j))) := by
  have e : idx_main_v54 (ix4 (0 : Fin 1) i j (0 : Fin 1)) = ix3 0 i j := by idx_three
  simp only [val_main_v54_apply, e, val_main_v53_apply, val_main_v50_apply, val_main_v52_apply, val_main_v49_apply,
    val_main_c_11_apply, val_main_v51_apply, val_main_c_12_apply, posClass_at]

theorem tokWord_at (x0 x1 x2 : Words) (i j : Fin 1024) :
    val_main_v61 (F := Ideal) x0 x1 x2 (ix4 0 i j 0)
      = Scalar.select (IntOp.cmpi .slt (Cert.Spec.tokClass (x0 (ix2 0 i)) (x0 (ix2 0 j)) (x1 (ix2 0 i)) (x1 (ix2 0 j)) (x2 (ix2 0 i)) (x2 (ix2 0 j))) 0#32)
          (IntOp.addi (Cert.Spec.tokClass (x0 (ix2 0 i)) (x0 (ix2 0 j)) (x1 (ix2 0 i)) (x1 (ix2 0 j)) (x2 (ix2 0 i)) (x2 (ix2 0 j))) 66#32)
          (Cert.Spec.tokClass (x0 (ix2 0 i)) (x0 (ix2 0 j)) (x1 (ix2 0 i)) (x1 (ix2 0 j)) (x2 (ix2 0 i)) (x2 (ix2 0 j))) := by
  have e : idx_main_v61 (ix4 (0 : Fin 1) i j (0 : Fin 1)) = ix3 0 i j := by idx_three
  simp only [val_main_v61_apply, e, val_main_v60_apply, val_main_v57_apply, val_main_v59_apply, val_main_v56_apply,
    val_main_c_13_apply, val_main_v58_apply, val_main_c_14_apply, tokClass_at]

theorem chainWord_at (x2 : Words) (i j : Fin 1024) :
    val_main_v76 (F := Ideal) x2 (ix4 0 i j 0)
      = Scalar.select (IntOp.cmpi .slt (Cert.Spec.chainClass (x2 (ix2 0 i)) (x2 (ix2 0 j))) 0#32)
          (IntOp.addi (Cert.Spec.chainClass (x2 (ix2 0 i)) (x2 (ix2 0 j))) 6#32)
          (Cert.Spec.chainClass (x2 (ix2 0 i)) (x2 (ix2 0 j))) := by
  have e : idx_main_v76 (ix4 (0 : Fin 1) i j (0 : Fin 1)) = ix3 0 i j := by idx_three
  simp only [val_main_v76_apply, e, val_main_v75_apply, val_main_v72_apply, val_main_v74_apply, val_main_v71_apply,
    val_main_c_15_apply, val_main_v73_apply, val_main_c_16_apply, chainClass_at]

/-! The four tables are row ranges of the transposed weight matrix: rows 0–65, 66–131, 132 and 133–138, i.e. those
    columns of the channel's weight row. -/

theorem posTable_at (x5 : Weights) (r : Fin 66) (c : Fin 128) :
    val_main_v44 (F := Ideal) x5 (ix2 r c) = x5 (ix2 c ⟨r.val, by omega⟩) := by
  rw [val_main_v44_apply, val_main_v43_apply]
  exact congrArg x5 (by idx_two)

theorem tokTable_at (x5 : Weights) (r : Fin 66) (c : Fin 128) :
    val_main_v45 (F := Ideal) x5 (ix2 r c) = x5 (ix2 c ⟨66 + r.val, by omega⟩) := by
  rw [val_main_v45_apply, val_main_v43_apply]
  exact congrArg x5 (by idx_two)

theorem chainTable_at (x5 : Weights) (r : Fin 6) (c : Fin 128) :
    val_main_v48 (F := Ideal) x5 (ix2 r c) = x5 (ix2 c ⟨133 + r.val, by omega⟩) := by
  rw [val_main_v48_apply, val_main_v43_apply]
  exact congrArg x5 (by idx_two)

theorem entWeight_at (x5 : Weights) (i j : Fin 1024) (c : Fin 128) :
    val_main_v68 (F := Ideal) x5 (ix4 0 i j c) = x5 (ix2 c ⟨132, by decide⟩) := by
  rw [val_main_v68_apply, val_main_v66_apply, val_main_v47_apply, val_main_v46_apply, val_main_v43_apply]
  refine congrArg x5 ?_
  funext a; refine Fin.ext ?_
  match a with
  | ⟨0, _⟩ => exact Nat.mod_eq_of_lt c.isLt
  | ⟨1, _⟩ => rfl

/-! The three look-ups: each gather reads its table's row at the clamped start index, which is the specification's
    `lookup` of the class word. -/

theorem posTerm_at (x0 x2 : Words) (x5 : Weights) (i j : Fin 1024) (c : Fin 128) :
    val_main_v55 (F := Ideal) x0 x2 x5 (ix4 0 i j c)
      = x5 (ix2 c ⟨Cert.Spec.lookup 66 (Cert.Spec.posClass (x0 (ix2 0 i)) (x0 (ix2 0 j)) (x2 (ix2 0 i)) (x2 (ix2 0 j))),
          by have := Cert.Spec.lookup_lt (n := 66) (by decide) (Cert.Spec.posClass (x0 (ix2 0 i)) (x0 (ix2 0 j)) (x2 (ix2 0 i)) (x2 (ix2 0 j))); omega⟩) := by
  unfold val_main_v55
  refine (gather_rows_apply (N := 66) (by decide) Facts₀.gather_S66x128_S1x1024x1024x1_S1x1024x1024x128_3_0_n_n_0_3_1128_wf
    (val_main_v44 (F := Ideal) x5) (val_main_v54 (F := Ideal) x0 x2) 0 i j c).trans ?_
  rw [posTable_at]
  refine congrArg x5 (congrArg (ix2 c) (Fin.ext ?_))
  show min (val_main_v54 (F := Ideal) x0 x2 (ix4 0 i j 0)).toInt.toNat (66 - 1) = Cert.Spec.lookup 66 _
  rw [posWord_at]
  rfl

theorem tokTerm_at (x0 x1 x2 : Words) (x5 : Weights) (i j : Fin 1024) (c : Fin 128) :
    val_main_v62 (F := Ideal) x0 x1 x2 x5 (ix4 0 i j c)
      = x5 (ix2 c ⟨66 + Cert.Spec.lookup 66 (Cert.Spec.tokClass (x0 (ix2 0 i)) (x0 (ix2 0 j)) (x1 (ix2 0 i)) (x1 (ix2 0 j)) (x2 (ix2 0 i)) (x2 (ix2 0 j))),
          by have := Cert.Spec.lookup_lt (n := 66) (by decide) (Cert.Spec.tokClass (x0 (ix2 0 i)) (x0 (ix2 0 j)) (x1 (ix2 0 i)) (x1 (ix2 0 j)) (x2 (ix2 0 i)) (x2 (ix2 0 j))); omega⟩) := by
  unfold val_main_v62
  refine (gather_rows_apply (N := 66) (by decide) Facts₀.gather_S66x128_S1x1024x1024x1_S1x1024x1024x128_3_0_n_n_0_3_1128_wf
    (val_main_v45 (F := Ideal) x5) (val_main_v61 (F := Ideal) x0 x1 x2) 0 i j c).trans ?_
  rw [tokTable_at]
  refine congrArg x5 (congrArg (ix2 c) (Fin.ext ?_))
  show 66 + min (val_main_v61 (F := Ideal) x0 x1 x2 (ix4 0 i j 0)).toInt.toNat (66 - 1) = 66 + Cert.Spec.lookup 66 _
  rw [tokWord_at]
  rfl

theorem chainTerm_at (x2 : Words) (x5 : Weights) (i j : Fin 1024) (c : Fin 128) :
    val_main_v77 (F := Ideal) x2 x5 (ix4 0 i j c)
      = x5 (ix2 c ⟨133 + Cert.Spec.lookup 6 (Cert.Spec.chainClass (x2 (ix2 0 i)) (x2 (ix2 0 j))),
          by have := Cert.Spec.lookup_lt (n := 6) (by decide) (Cert.Spec.chainClass (x2 (ix2 0 i)) (x2 (ix2 0 j))); omega⟩) := by
  unfold val_main_v77
  refine (gather_rows_apply (N := 6) (by decide) Facts₀.gather_S6x128_S1x1024x1024x1_S1x1024x1024x128_3_0_n_n_0_3_1128_wf
    (val_main_v48 (F := Ideal) x5) (val_main_v76 (F := Ideal) x2) 0 i j c).trans ?_
  rw [chainTable_at]
  refine congrArg x5 (congrArg (ix2 c) (Fin.ext ?_))
  show 133 + min (val_main_v76 (F := Ideal) x2 (ix4 0 i j 0)).toInt.toNat (6 - 1) = 133 + Cert.Spec.lookup 6 _
  rw [chainWord_at]
  rfl

/-- The same-entity factor: the equality bit of the two entity ids, read unsigned. -/
theorem entBit_at (x3 : Words) (i j : Fin 1024) (c : Fin 128) :
    val_main_v67 (F := Ideal) x3 (ix4 0 i j c) = Cert.Spec.bitU (Cert.Spec.eqBit (x3 (ix2 0 i)) (x3 (ix2 0 j))) := by
  have e0 : idx_main_v64 (idx_main_v67 (ix4 (0 : Fin 1) i j c)) = ix3 0 i j := by idx_three
  have e1 : idx_main_v10 (idx_main_v12 (ix3 (0 : Fin 1) i j)) = ix2 0 i := by idx_two
  have e2 : idx_main_v11 (idx_main_v13 (ix3 (0 : Fin 1) i j)) = ix2 0 j := by idx_two
  simp only [val_main_v67_apply, val_main_v65_apply, val_main_v64_apply, e0, val_main_v14_apply, val_main_v12_apply,
    val_main_v10_apply, val_main_v13_apply, val_main_v11_apply, e1, e2]
  rfl

/-- The pair mask: the product of the two tokens' mask values. -/
theorem pairMask_at (x4 : Mask) (i j : Fin 1024) (c : Fin 128) :
    val_main_v85 (F := Ideal) x4 (ix4 0 i j c) = (x4 (ix2 0 i) : EReal) * (x4 (ix2 0 j) : EReal) := by
  have e0 : idx_main_v84 (idx_main_v85 (ix4 (0 : Fin 1) i j c)) = ix3 0 i j := by idx_three
  have e1 : idx_main_v79 (idx_main_v81 (ix3 (0 : Fin 1) i j)) = ix2 0 i := by idx_two
  have e2 : idx_main_v80 (idx_main_v82 (ix3 (0 : Fin 1) i j)) = ix2 0 j := by idx_two
  simp only [val_main_v85_apply, val_main_v84_apply, e0, val_main_v83_apply, val_main_v81_apply, val_main_v79_apply,
    val_main_v82_apply, val_main_v80_apply, e1, e2]
  rfl

/-- THE REFERENCE AT AN INDEX: entry `(0, i, j, c)` of the result is the four-look-up form `refVal` of the eight id
    words of tokens `i` and `j`, their two mask values and row `c` of the weight matrix. -/
theorem val_main_v86_spec (x0 x1 x2 x3 : (⟨S1x1024, .i32⟩ : BufTy).Contents (Elt Ideal)) (x4 : (⟨S1x1024, .f32⟩ : BufTy).Contents (Elt Ideal))
    (x5 : (⟨S128x139, .f32⟩ : BufTy).Contents (Elt Ideal)) (i j : Fin 1024) (c : Fin 128) :
    val_main_v86 (F := Ideal) x0 x1 x2 x3 x4 x5 (ix4 0 i j c)
      = Cert.Spec.refVal (x0 (ix2 0 i)) (x0 (ix2 0 j)) (x1 (ix2 0 i)) (x1 (ix2 0 j)) (x2 (ix2 0 i)) (x2 (ix2 0 j))
          (x3 (ix2 0 i)) (x3 (ix2 0 j)) (x4 (ix2 0 i)) (x4 (ix2 0 j)) (fun k => x5 (ix2 c k)) := by
  rw [val_main_v86_apply, val_main_v78_apply, val_main_v70_apply, val_main_v63_apply, val_main_v69_apply,
    posTerm_at, tokTerm_at, chainTerm_at, entBit_at, entWeight_at, pairMask_at]
  rfl

end Cert.ReferenceIdeal.RefValue

end
-- ==== Proof.Algebra.lean ====
/-
  The law joining the two arrangements of one entry of the pair representation.

  Every class word is small and non-negative: the residue-offset and the token-offset class are a clip into
  [0, 64] or the literal 65, the chain-offset class is 2 inside one chain and 5 across chains. So a table look-up
  of such a word reads the row of the word's own value (no wrap, no clamp), and the indicator of the word over the
  133 leading columns is 1 at that value and 0 elsewhere; the entity word is column 132 or the all-ones word,
  which is no column. With finite weights w k = r k the contraction of the three added indicators is a finite sum
  of reals that splits into three indicator sums, each picking one term: r[p] + r[66 + t] + e * r[132]. The chain
  term s * (r135 - r138) + r138 with s in {0, 1} is r[133 + ch]. Both forms are then the same real number times
  the mask product, which is left untouched.
-/
import proofs.«411382_j7619271983169_3_alg».proof.Proof.Spec
import Mathlib.Data.EReal.Operations
import Mathlib.Algebra.BigOperators.Group.Finset.Basic
import Mathlib.Algebra.BigOperators.Group.Finset.Piecewise
import Mathlib.Tactic.Ring
import Mathlib.Tactic.NormNum

open scoped BigOperators

namespace Cert.Spec

open Idealize.ShloMosaic

/-- A one-bit word is 1 or 0. -/
theorem bit_cases (b : BitVec 1) : b = 1#1 ∨ b = 0#1 := by
  revert b; decide

/-- A signed clip into [0, hi] is, read unsigned, at most hi (for non-negative hi). -/
theorem bucket_le (hi off ai aj : BitVec 32) (hhi : hi.toNat < 2 ^ 31) :
    (bucket hi off ai aj).toNat ≤ hi.toNat := by
  unfold bucket IntOp.minsi IntOp.maxsi
  generalize IntOp.addi (IntOp.subi aj ai) off = x
  simp only [BitVec.slt, BitVec.toInt_eq_toNat_cond]
  split_ifs <;> simp_all <;> omega

theorem select_one {α : Type} (a b : α) : Scalar.select 1#1 a b = a := by
  simp [Scalar.select]

theorem select_zero {α : Type} (a b : α) : Scalar.select 0#1 a b = b := by
  simp [Scalar.select]

theorem posClass_le (ri rj ai aj : BitVec 32) : (posClass ri rj ai aj).toNat ≤ 65 := by
  unfold posClass
  rcases bit_cases (eqBit ai aj) with h | h
  · rw [h, select_one]
    have := bucket_le 64#32 32#32 ri rj (by decide)
    simp at this; omega
  · rw [h, select_zero]; decide

theorem tokClass_le (ri rj ti tj ai aj : BitVec 32) : (tokClass ri rj ti tj ai aj).toNat ≤ 65 := by
  unfold tokClass
  rcases bit_cases (IntOp.andi (eqBit ai aj) (eqBit ri rj)) with h | h
  · rw [h, select_one]
    have := bucket_le 64#32 32#32 ti tj (by decide)
    simp at this; omega
  · rw [h, select_zero]; decide

theorem eqBit_eq_one {a b : BitVec 32} : eqBit a b = 1#1 ↔ a = b := by
  unfold eqBit IntOp.cmpi
  cases hb : (a == b)
  · have : a ≠ b := by simpa using hb
    simp [this]
  · have : a = b := by simpa using hb
    simp [this]

/-- Inside one chain the chain offset is 0, its class 0 + 2 = 2, which the clip into [0, 4] keeps. -/
theorem chainClass_same (ai aj : BitVec 32) (h : eqBit ai aj = 1#1) : chainClass ai aj = 2#32 := by
  unfold chainClass
  rw [h, select_one]
  rw [eqBit_eq_one] at h
  subst h
  simp [bucket, IntOp.subi, IntOp.addi]
  decide

theorem chainClass_diff (ai aj : BitVec 32) (h : eqBit ai aj = 0#1) : chainClass ai aj = 5#32 := by
  unfold chainClass
  rw [h, select_zero]

/-- A class word that is non-negative and below the table's length is looked up at its own value. -/
theorem lookup_small (n : Nat) (d : BitVec 32) (hd : d.toNat < n) (hn : n ≤ 2 ^ 31) : lookup n d = d.toNat := by
  unfold lookup Scalar.select IntOp.cmpi
  have h0 : d.slt 0#32 = false := by
    simp [BitVec.slt, BitVec.toInt_eq_toNat_cond]; omega
  simp [h0, BitVec.toInt_eq_toNat_cond]
  omega

/-- A small natural number, as a word, equals a word exactly when it is that word's value. -/
theorem ofNat_eq_iff (k : Nat) (hk : k < 2 ^ 32) (d : BitVec 32) : BitVec.ofNat 32 k = d ↔ k = d.toNat := by
  constructor
  · intro h; subst h
    simp [BitVec.toNat_ofNat]; omega
  · intro h; subst h; simp

theorem bitS_one : bitS 1#1 = ((1 : ℝ) : EReal) := by
  have : ((1#1 : BitVec 1).setWidth 32).toInt = 1 := by decide
  unfold bitS; rw [this]; norm_num

theorem bitS_zero : bitS 0#1 = ((0 : ℝ) : EReal) := by
  have : ((0#1 : BitVec 1).setWidth 32).toInt = 0 := by decide
  unfold bitS; rw [this]; norm_num

/-- The indicator of a class word at a column is 1 at the word's value and 0 elsewhere. -/
theorem oneHot_eq (d : BitVec 32) (k : Fin 133) :
    oneHot d k = (((if k.val = d.toNat then 1 else 0 : ℝ)) : EReal) := by
  unfold oneHot IntOp.cmpi
  have hk : k.val < 2 ^ 32 := by have := k.isLt; omega
  by_cases h : k.val = d.toNat
  · have e : (BitVec.ofNat 32 k.val == d) = true := by simpa using (ofNat_eq_iff _ hk d).2 h
    rw [e, if_pos h]; exact bitS_one
  · have e : (BitVec.ofNat 32 k.val == d) = false := by
      simpa using fun e' => h ((ofNat_eq_iff _ hk d).1 e')
    rw [e, if_neg h]; exact bitS_zero

/-- The entity indicator: the entity bit at column 132, nothing elsewhere (the all-ones word is no column). -/
theorem oneHot_ent (ei ej : BitVec 32) (k : Fin 133) :
    oneHot (entClass ei ej) k
      = (((((eqBit ei ej).toNat : ℝ)) * (if k.val = 132 then 1 else 0) : ℝ) : EReal) := by
  rw [oneHot_eq]
  unfold entClass
  rcases bit_cases (eqBit ei ej) with h | h
  · rw [h, select_one]; simp
  · rw [h, select_zero]
    have : k.val ≠ 4294967295 := by have := k.isLt; omega
    simp [this]

/-- An indicator contracted with a sequence picks out one term. -/
theorem sum_ind (g : ℕ → ℝ) (p : ℕ) (hp : p < 133) :
    ∑ k : Fin 133, (if k.val = p then (1 : ℝ) else 0) * g k.val = g p := by
  rw [Finset.sum_eq_single (⟨p, hp⟩ : Fin 133)]
  · simp
  · intro b _ hb
    have : b.val ≠ p := fun h => hb (Fin.ext h)
    simp [this]
  · intro h; exact absurd (Finset.mem_univ _) h

/-- The embedding of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The contraction of the three added indicators with finite weights is the sum of three look-ups. -/
theorem table_sum (g : ℕ → ℝ) (P T ei ej : BitVec 32) (hP : P.toNat ≤ 65) (hT : T.toNat ≤ 65) :
    ∑ k : Fin 133, ((oneHot P k + oneHot (IntOp.addi T 66#32) k) + oneHot (entClass ei ej) k)
        * ((g k.val : ℝ) : EReal)
      = (((g (lookup 66 P) : ℝ) : EReal) + ((g (66 + lookup 66 T) : ℝ) : EReal))
        + bitU (eqBit ei ej) * ((g 132 : ℝ) : EReal) := by
  have hT' : (IntOp.addi T 66#32).toNat = 66 + T.toNat := by
    unfold IntOp.addi; rw [BitVec.toNat_add]; simp; omega
  rw [lookup_small 66 P (by omega) (by norm_num), lookup_small 66 T (by omega) (by norm_num)]
  unfold bitU
  simp only [oneHot_ent]
  simp only [oneHot_eq, hT', ← EReal.coe_add, ← EReal.coe_mul, ← coe_sum]
  congr 1
  simp only [add_mul, Finset.sum_add_distrib, mul_assoc, ← Finset.mul_sum]
  rw [sum_ind g _ (by omega), sum_ind g _ (by omega), sum_ind g 132 (by norm_num)]

/-- The two-point interpolation between the same-chain and the other-chain weight is the look-up of the
    chain class. -/
theorem chain_term (g : ℕ → ℝ) (ai aj : BitVec 32) :
    bitS (eqBit ai aj) * (((g 135 : ℝ) : EReal) - ((g 138 : ℝ) : EReal)) + ((g 138 : ℝ) : EReal)
      = ((g (133 + lookup 6 (chainClass ai aj)) : ℝ) : EReal) := by
  rcases bit_cases (eqBit ai aj) with h | h
  · rw [chainClass_same _ _ h, h, bitS_one, lookup_small 6 2#32 (by decide) (by norm_num),
      ← EReal.coe_sub, ← EReal.coe_mul, ← EReal.coe_add]
    congr 1
    norm_num
  · rw [chainClass_diff _ _ h, h, bitS_zero, lookup_small 6 5#32 (by decide) (by norm_num),
      ← EReal.coe_sub, ← EReal.coe_mul, ← EReal.coe_add]
    congr 1
    norm_num

/-- The law joining the two arrangements: for finite weights the one-hot contraction form and the four-look-up
    form agree. The mask product is a common factor and is never opened (it may be infinite). -/
theorem kernelVal_eq_refVal (ri rj ti tj ai aj ei ej : BitVec 32) (mi mj : EReal) (w : Fin 139 → EReal)
    (hw : ∀ k, ∃ r : ℝ, w k = (r : EReal)) :
    kernelVal ri rj ti tj ai aj ei ej mi mj (fun k => w ⟨k.val, by omega⟩) (w ⟨135, by decide⟩) (w ⟨138, by decide⟩)
      = refVal ri rj ti tj ai aj ei ej mi mj w := by
  choose r hr using hw
  let g : ℕ → ℝ := fun n => if h : n < 139 then r ⟨n, h⟩ else 0
  have hg : ∀ (n : ℕ) (h : n < 139), w ⟨n, h⟩ = ((g n : ℝ) : EReal) := by
    intro n h; simp only [g, dif_pos h]; exact hr _
  unfold kernelVal refVal
  simp only [hg]
  rw [table_sum g _ _ ei ej (posClass_le ri rj ai aj) (tokClass_le ri rj ti tj ai aj), chain_term g ai aj]

end Cert.Spec
-- ==== Proof.Bridge.lean ====
/-
  The two programs compute one function.

  The kernel's result is the array `G` of the arguments viewed as [1, 1024, 1024, 128]: entry (0, i, j, ch) is the
  one-hot contraction form of the pair (i, j) at channel ch. The reference's result at the same index is the
  four-look-up form of the same scalars. For a finite weight matrix the two forms agree (the contraction of
  a sum of three indicator vectors is the sum of three look-ups; the interpolation between two columns by a 0/1
  weight is a look-up), whatever the mask values are.
-/
import proofs.«411382_j7619271983169_3_alg».proof.Proof.KernelValue
import proofs.«411382_j7619271983169_3_alg».proof.Proof.RefValue
import proofs.«411382_j7619271983169_3_alg».proof.Proof.Algebra

noncomputable section

namespace Cert.Bridge

open Idealize.ShloMosaic Idealize.ShloMosaic.ValueIdx

/-- The kernel's array, viewed with a leading unit axis, is the reference's result array, for finite weights. -/
theorem result_eq (a0 a1 a2 a3 : Cert.KernelIdeal.S1x1024.Idx → BitVec 32) (a4 : Cert.KernelIdeal.S1x1024.Idx → EReal)
    (a5 : Cert.KernelIdeal.S128x139.Idx → EReal) (hfin : ∀ i, ∃ r : ℝ, a5 i = (r : EReal))
    (h : Cert.KernelIdeal.S1024x1024x128.ShapeCasts Cert.KernelIdeal.S1x1024x1024x128) :
    shapeCast Cert.KernelIdeal.S1x1024x1024x128 (Cert.KernelIdeal.KValue.G a0 a1 a2 a3 a4 a5) h
      = Cert.ReferenceIdeal.Read.val_main_v86 (F := Ideal) a0 a1 a2 a3 a4 a5 := by
  funext idx
  obtain ⟨z, i, j, ch, rfl⟩ : ∃ (z : Fin 1) (i j : Fin 1024) (ch : Fin 128), idx = ix4 z i j ch :=
    ⟨idx 0, idx 1, idx 2, idx 3, eq_ix4 idx⟩
  obtain rfl : z = 0 := Subsingleton.elim _ _
  rw [shapeCast_apply _ h (ix4 0 i j ch) (ix3 i j ch) (by
    rw [Shape.rowMajor_val_three, Shape.rowMajor_val_four]
    show (i.val * 1024 + j.val) * 128 + ch.val = ((0 * 1024 + i.val) * 1024 + j.val) * 128 + ch.val
    omega)]
  rw [Cert.ReferenceIdeal.RefValue.val_main_v86_spec]
  exact Cert.Spec.kernelVal_eq_refVal _ _ _ _ _ _ _ _ _ _ (fun k => a5 (ix2 ch k)) (fun k => hfin _)

end Cert.Bridge

end
-- ==== Proof.Finite.lean ====
/-
  The weights are finite under the printed precondition.

  The precondition is the conjunction of two all-reductions of the comparison |x| < +inf, over the mask row and
  over the weight matrix. The conjunction being 1, its second part is 1; an all-reduction by "and" into a single
  result that is 1 met a 1 at every index; so at every entry of the weight matrix |x| < +inf holds, where |x| is
  max x (-x) and the bit pattern 0x7F800000 denotes +inf. An extended real with max x (-x) < +inf is neither
  infinity, hence a real.
-/
import proofs.«411382_j7619271983169_3_alg».proof.Proof.Gen.Pre_finite_inputs
import Idealize.ShloMosaic.Lib.ReduceAll
import Idealize.ShloMosaic.Lib.ValueIdx

namespace Cert.Finite
open Idealize.ShloMosaic

/-- The shape of a scalar has one index. -/
instance : Subsingleton Cert.Pre_finite_inputs.S_.Idx := ⟨fun a b => funext fun d => d.elim0⟩

/-- An extended real whose absolute value is below +inf is a real. -/
theorem real_of_abs_lt_top (x : EReal) (h : max x (-x) < ⊤) : ∃ r : ℝ, x = (r : EReal) := by
  induction x using EReal.rec with
  | bot => simp at h
  | coe r => exact ⟨r, rfl⟩
  | top => simp at h

/-- The single-precision pattern with all exponent bits set and no fraction bit denotes +inf. -/
theorem inf_bits : Ideal.ofBits .f32 0x7F800000#32 = (⊤ : EReal) := by
  simp [Ideal.ofBits, Ideal.ieee]

/-- A bit made from a truth value is 1 only for "true". -/
theorem ofBool_eq_one {b : Bool} (h : BitVec.ofBool b = 1#1) : b = true := by
  cases b
  · exact absurd h (by decide)
  · rfl

/-- Every entry of the weight matrix is a real number. -/
theorem W_finite (a0 a1 a2 a3 : IVec Cert.Pre_finite_inputs.S1x1024 32) (a4 : FVec Ideal Cert.Pre_finite_inputs.S1x1024 .f32)
    (a5 : FVec Ideal Cert.Pre_finite_inputs.S128x139 .f32)
    (h : Cert.Pre_finite_inputs.fn (F := Ideal) a0 a1 a2 a3 a4 a5 = (fun _ => 1#1)) :
    ∀ i, ∃ r : ℝ, a5 i = (r : EReal) := by
  intro i
  have h0 := congrFun h ValueIdx.ix0
  dsimp only [Cert.Pre_finite_inputs.fn] at h0
  have h1 := (IntOp.andi_eq_one.1 h0).2
  have h2 := Host.reduce_andi_all _ _ _ _ _ h1 i
  have h3 : Ideal.cmp .olt (max (a5 i) (-(a5 i))) (Ideal.ofBits .f32 0x7F800000#32) = 1#1 := h2
  rw [inf_bits] at h3
  have h4 : decide (max (a5 i) (-(a5 i)) < (⊤ : EReal)) = true := ofBool_eq_one h3
  exact real_of_abs_lt_top _ (of_decide_eq_true h4)

end Cert.Finite
-- ==== Proof.lean ====
/-
  The certificate of the pair-representation kernel against its reference.

  Both programs map four integer id arrays [1, 1024], a mask [1, 1024] and a weight matrix [128, 139] to the array
  [1, 1024, 1024, 128] whose entry (0, i, j, ch) is, times mask_i * mask_j, the sum of four weights of channel ch: the one
  of the residue-offset class of (i, j), the one of its token-offset class, the same-entity weight when the entity ids
  agree, and the one of its chain-offset class. The reference looks the four weights up; the kernel contracts a
  one-hot vector over the first 133 columns with the weight table on an 8 x 8 grid of [128, 128, 128] blocks and
  interpolates the chain weight between the only two columns it can take. Over the extended reals the two agree for
  finite weights, which the precondition gives.

  The frames of the two kernel programs are the generated ones; the reference's frame is its generated run with the
  result dropped; the idealization changed no operation, so nothing is owed for it; the value claim is assembled here
  from the kernel's run read back (KernelValue), the reference's run read back (RefValue), the scalar law (Algebra)
  and the finiteness of the weights (Finite).
-/
import proofs.«411382_j7619271983169_3_alg».proof.Defs
import proofs.«411382_j7619271983169_3_alg».proof.Proof.Gen.Kernel
import proofs.«411382_j7619271983169_3_alg».proof.Proof.Gen.Kernel.Skeleton
import proofs.«411382_j7619271983169_3_alg».proof.Proof.Gen.Kernel.Launch
import proofs.«411382_j7619271983169_3_alg».proof.Proof.Gen.Kernel.Points
import proofs.«411382_j7619271983169_3_alg».proof.Proof.Gen.Kernel.Frame
import proofs.«411382_j7619271983169_3_alg».proof.Proof.Gen.KernelIdeal
import proofs.«411382_j7619271983169_3_alg».proof.Proof.Gen.KernelIdeal.Skeleton
import proofs.«411382_j7619271983169_3_alg».proof.Proof.Gen.KernelIdeal.Launch
import proofs.«411382_j7619271983169_3_alg».proof.Proof.Gen.KernelIdeal.Points
import proofs.«411382_j7619271983169_3_alg».proof.Proof.Gen.KernelIdeal.Frame
import proofs.«411382_j7619271983169_3_alg».proof.Proof.Gen.ReferenceIdeal
import proofs.«411382_j7619271983169_3_alg».proof.Proof.Gen.ReferenceIdeal.Run
import proofs.«411382_j7619271983169_3_alg».proof.Proof.Gen.ReferenceIdeal.Read
import proofs.«411382_j7619271983169_3_alg».proof.Proof.Gen.Pre_finite_inputs
import proofs.«411382_j7619271983169_3_alg».proof.Proof.Bridge
import proofs.«411382_j7619271983169_3_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result array: the kernel's run ends at
    `G` of its arguments viewed as [1, 1024, 1024, 128], the reference's at its composed term, and the two are one
    function of the arguments when the weights are finite, which the precondition says of the kernel's memory. -/
theorem algebraic : Cert.algebraic_KernelIdeal_ReferenceIdeal := by
  intro m ρ m' ρ' hpre hagree
  refine ⟨fun c => shapeCast Cert.KernelIdeal.S1x1024x1024x128 (Cert.KernelIdeal.KValue.Gm m c)
    Cert.KernelIdeal.Gen.shapeCasts_S1024x1024x128_S1x1024x1024x128, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v86_eq, (hagree c).1, (hagree c).2.1, (hagree c).2.2.1, (hagree c).2.2.2.1,
    (hagree c).2.2.2.2.1, (hagree c).2.2.2.2.2]
  exact (Cert.Bridge.result_eq _ _ _ _ _ _ (Cert.Finite.W_finite _ _ _ _ _ _ (hpre c)) _).symm

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
